-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S64x10000 : S_.BroadcastsInDim S64x10000 (![] : Fin 0 → Fin S64x10000.rank)
  reducesTo_S64x10000_S_d0_1 : S64x10000.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128x128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x10000 .f32) (main_arg1 : FVec F S64x10000 .f32) (main_arg2 : FVec F S10000x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S64x10000 .f32 := Host.absf main_arg1
  let main_cst_0 : FVec F S_ .f32 := constant S_ .f32 0x7F800000#32
  let main_v5 : FVec F S64x10000 .f32 := broadcastInDim S64x10000 ![] bcast_S_S64x10000 main_cst_0
  let main_v6 : IVec S64x10000 1 := cmpf .olt main_v4 main_v5
  let main_c_1 : IVec S_ 1 := constantI S_ 1 1#1
  let main_v7 : IVec S_ 1 := (fun x v => Host.reduce IntOp.andi x v reducesTo_S64x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S64x128 : Shape := ⟨2, ![64, 128]⟩
abbrev S400x10000 : Shape := ⟨2, ![400, 10000]⟩
abbrev S400x128 : Shape := ⟨2, ![400, 128]⟩
abbrev S1x128 : Shape := ⟨2, ![1, 128]⟩
abbrev S400 : Shape := ⟨1, ![400]⟩
abbrev S400x1 : Shape := ⟨2, ![400, 1]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S10000x10000, .f32⟩
  | .hbm, ⟨1, _⟩ => ⟨S64x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S64x128, .f32⟩
  | .local _ .vmem, ⟨0, _⟩ => ⟨S400x10000, .f32⟩
  | .local _ .vmem, ⟨1, _⟩ => ⟨S400x10000, .f32⟩
  | .local _ .vmem, ⟨2, _⟩ => ⟨S64x10000, .f32⟩
  | .local _ .vmem, ⟨3, _⟩ => ⟨S10000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S400x128, .f32⟩
  | .local _ .vmem, ⟨10, _⟩ => ⟨S400x128, .f32⟩
  | .local _ .vmem, ⟨11, _⟩ => ⟨S64x128, .f32⟩
  | .local _ .vmem, ⟨12, _⟩ => ⟨S10000x128, .f32⟩
  | .local _ .vmem, ⟨13, _⟩ => ⟨S10000x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v19 : BitVec 32 := Scalar.muli arg0 c400_i32
  let v20 : Index := Scalar.indexCast v19
  let c0_12 : Index := 0#32
  ![v20.toNat, 0]
def k0_cond2 (i : grid0.Coords) : BitVec 1 :=
  let arg0 : BitVec 32 := BitVec.ofNat 32 (i 0).val
  let c24_i32 : BitVec 32 := 24#32
  let v24 : BitVec 1 := Scalar.cmpi .eq arg0 c24_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  reduces_S400x128_S400 : S400x128.Reduces [1] S400
  shapeCasts_S400_S400x1 : S400.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S64x10000_S64x10000_0_0 : ∀ a, (![0, 0] : Fin 2 → Nat) a + S64x10000.size a ≤ S64x10000.size a
  h_S64x10000 : 0 < S64x10000.numel
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  inb_S64x128_S64x128_0_0 : ∀ a, (![0, 0] : Fin 2 → Nat) a + S64x128.size a ≤ S64x128.size a
  h_S64x128 : 0 < S64x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S64x10000_S10000x128_S64x128_1_0_0_1_n_n_wf : DotDims.WF S64x10000 S10000x128 S64x128 [1] [0] [0] [1] [] []
  dot_S64x128_S128x128_S64x128_1_1_0_0_n_n_wf : DotDims.WF S64x128 S128x128 S64x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x10000.size a ≤ S64x10000.size a
  hwx0_1 : ∀ i : grid0.Coords, EltTy.bits .f32 = 32 ∨ (Rect.block (s := S64x10000) S64x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S10000x128.size a
  hwx0_8 : ∀ i : grid0.Coords, EltTy.bits .f32 = 32 ∨ (Rect.block (s := S10000x128) S400x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf
def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf

abbrev win0_0 : Pipeline.Window sig grid0 :=
  Pipeline.Window.ofSpec (Memref.whole main_arg0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S400x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S10000x10000 : Shape := ⟨2, ![10000, 10000]⟩
abbrev S64x10000 : Shape := ⟨2, ![64, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩
abbrev S64x128 : Shape := ⟨2, ![64, 128]⟩
abbrev S64 : Shape := ⟨1, ![64]⟩
abbrev S64x1 : Shape := ⟨2, ![64, 1]⟩

abbrev nBuf : Space → Nat
  | .hbm => 50
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S64x10000, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000, .f32⟩
  | .hbm, ⟨24, _⟩ => ⟨S10000x1, .f32⟩
  | .hbm, ⟨25, _⟩ => ⟨S10000x1, .f32⟩
  | .hbm, ⟨26, _⟩ => ⟨S_, .f32⟩
  | .hbm, ⟨27, _⟩ => ⟨S10000x1, .f32⟩
  | .hbm, ⟨28, _⟩ => ⟨S10000x1, .f32⟩
  | .hbm, ⟨29, _⟩ => ⟨S10000x128, .f32⟩
  | .hbm, ⟨30, _⟩ => ⟨S10000x128, .f32⟩
  | .hbm, ⟨31, _⟩ => ⟨S64x128, .f32⟩
  | .hbm, ⟨32, _⟩ => ⟨S128x128, .f32⟩
  | .hbm, ⟨33, _⟩ => ⟨S64x128, .f32⟩
  | .hbm, ⟨34, _⟩ => ⟨S1x128, .f32⟩
  | .hbm, ⟨35, _⟩ => ⟨S64x128, .f32⟩
  | .hbm, ⟨36, _⟩ => ⟨S64x128, .f32⟩
  | .hbm, ⟨37, _⟩ => ⟨S_, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x128, .f32⟩
  | .hbm, ⟨49, _⟩ => ⟨S64x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_cst : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_cst : Ref sig .tc := ⟨.hbm, 37, rfl⟩
abbrev main_call2_v0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S64x10000_S10000x128_S64x128_1_0_0_1_n_n_wf : DotDims.WF S64x10000 S10000x128 S64x128 [1] [0] [0] [1] [] []
  dot_S64x128_S128x128_S64x128_1_0_0_1_n_n_wf : DotDims.WF S64x128 S128x128 S64x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.Kernel.Shared.lean ====
/-
  What the three runs of the kernel body and the proof data share: when each branch of the body is taken
  (the first grid point alone computes h; the last alone pools), at which points the pooled output's
  window is idle, the names of the staging buffers the body is called with at a point, the two scratch
  buffers (h, and the mirror of h_struct filled 400 rows per point), and where a point's 400 rows sit.
-/
import proofs.«112774_g44092134261233_cont_8to1_c_785_15_alg».proof.Proof.Gen.Kernel.Launch
import proofs.«112774_g44092134261233_cont_8to1_c_785_15_alg».proof.Proof.Gen.Kernel.Skeleton
import proofs.«112774_g44092134261233_cont_8to1_c_785_15_alg».proof.Proof.Gen.Kernel.Points
import proofs.«112774_g44092134261233_cont_8to1_c_785_15_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branches -/

/-- The first branch (h is computed and stored) is taken when the grid coordinate is 0. -/
abbrev condFirst (i : grid0.Coords) : Prop :=
  (Scalar.cmpi .ne (Scalar.extui (Scalar.cmpi .eq (BitVec.ofNat 32 (i 0).val) 0#32)) 0#32) = 1#1
theorem condFirst_iff : ∀ t : Fin cfg0.N, condFirst (grid0.coords t) ↔ t.val % 25 = 0 :=
  (by decide +kernel : ∀ t : Fin grid0.N, condFirst (grid0.coords t) ↔ t.val % 25 = 0)

/-- The second branch (the pooled output is computed and stored) is taken when the grid coordinate is 24. -/
abbrev condLast (i : grid0.Coords) : Prop := k0_cond2 i = 1#1
theorem condLast_iff : ∀ t : Fin cfg0.N, condLast (grid0.coords t) ↔ t.val % 25 = 24 :=
  (by decide +kernel : ∀ t : Fin grid0.N, condLast (grid0.coords t) ↔ t.val % 25 = 24)

/-- The 400 rows a point stores into the mirror start at row 400·t. -/
theorem off_eq : ∀ t : Fin cfg0.N, k0_off1 (grid0.coords t) = ![400 * t.val, 0] :=
  (by decide +kernel : ∀ t : Fin grid0.N, k0_off1 (grid0.coords t) = ![400 * t.val, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The pooled output's window is idle, and not written back, at every point but the last. -/
theorem idle9 : ∀ t : Fin cfg0.N, ¬condLast (grid0.coords t) → cfg0.idle 9 (grid0.coords t) = true := by decide +kernel
theorem noFlush9 : ∀ t : Fin cfg0.N, ¬condLast (grid0.coords t) → (cfg0.win 9).flush t = false := by decide +kernel
theorem live9 : ∀ t : Fin cfg0.N, condLast (grid0.coords t) → cfg0.idle 9 (grid0.coords t) = false := by decide +kernel

/-! ## The buffers the body is called with -/

abbrev ms0 (t : Fin cfg0.N) : Memref sig .tc .vmem S400x10000 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S64x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S64x128 .f32 := win0_9.stage (cfg0.slots t 9)
abbrev hms9 (t : Fin cfg0.N) : (ms9 t).IsWhole := hstage0_9 ((cfg0.slots t 9).cast nbuf0_9)
/-- The scratch operands: h, and the mirror of h_struct. -/
abbrev scH : Memref sig .tc .vmem S10000x128 .f32 := Memref.whole cc0_scratch0
abbrev scM : Memref sig .tc .vmem S10000x128 .f32 := Memref.whole cc0_scratch1

/-- What the region hands the body besides the windows: both scratch buffers at some contents, and the
    generator register at some state. -/
theorem PhiA_eq (c : Dev nD) :
    (Pipeline.ΦA spec0 c : sProp 𝕄)
      = iprop(iprop((∃ d, owns (c : Thread nD τ) scH fullShare d) ∗ (∃ d, owns (c : Thread nD τ) scM fullShare d)) ∗ (∃ r, prngReg c r)) := by
  unfold Pipeline.ΦA; rw [scopedRest0_eq]; simp only [scH, scM, owns_whole]; try rfl

end Cert.Kernel.Hand

end
-- ==== Proof.Kernel.RunA.lean ====
/-
  The kernel body at the FIRST grid point. Both scratch buffers are as the launch left them: the h buffer
  at anything, the mirror at some contents. The body computes h from the features and stores it whole, then
  computes this point's 400 rows of h_struct from the adjacency tile and h, stores them into the output
  block and into rows 0…399 of the mirror. The pooled output is not touched.
-/
import proofs.«112774_g44092134261233_cont_8to1_c_785_15_alg».proof.Proof.Kernel.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the first point's stores leave in the h_struct block, in the h buffer and in the mirror, with
    the proof that the body, given whole buffers holding the inputs' blocks, runs to a continuation that
    gets the inputs back unchanged, the pooled output's buffer untouched, and those three buffers with
    those pieces written. The pieces are what the symbolic run finds. -/
noncomputable def runFirst (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) :
    Σ' (L8 : List (View.Piece (Elt F) S400x128 .f32)) (LS0 : List (View.Piece (Elt F) S10000x128 .f32)), { LS1 : List (View.Piece (Elt F) S10000x128 .f32) //
      ∀ (xi9 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d) ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]; · iexists _; iexact HS0
    iexact HS1

end Cert.Kernel.Hand

end
-- ==== Proof.Kernel.RunB.lean ====
/-
  The kernel body at a MIDDLE grid point (neither the first nor the last). The h buffer holds what the first
  point stored and is only read. The body computes this point's 400 rows of h_struct from the adjacency
  tile and h, stores them into the output block and into rows 400·t … 400·t+399 of the mirror, over
  whatever the mirror held. The pooled output is not touched.
-/
import proofs.«112774_g44092134261233_cont_8to1_c_785_15_alg».proof.Proof.Kernel.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces a middle point's stores leave in the h_struct block and in the mirror, with the proof that the
    body runs to a continuation that gets the inputs, the h buffer and the pooled output's buffer back
    unchanged and those two buffers with those pieces written. -/
noncomputable def runMid (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 : Vec F S10000x128 .f32) (xs1 : Vec F S10000x128 .f32) :
    Σ' (L8 : List (View.Piece (Elt F) S400x128 .f32)), { LS1 : List (View.Piece (Elt F) S10000x128 .f32) //
      ∀ (xi9 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]
    · iexists _; isplitr; · ipureintro; exact harg11.read_unread _
      iexact HS0
    iexact HS1

end Cert.Kernel.Hand

end
-- ==== Proof.Kernel.RunC.lean ====
/-
  The kernel body at the LAST grid point. The h buffer holds what the first point stored and is only read.
  The body computes the last 400 rows of h_struct, stores them into the output block and into rows
  9600 … 9999 of the mirror, then reads the WHOLE mirror back, pools it with the batch matrix, applies the
  graph layer and the normalisation, and stores the pooled output.
-/
import proofs.«112774_g44092134261233_cont_8to1_c_785_15_alg».proof.Proof.Kernel.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the last point's stores leave in the h_struct block, in the pooled output and in the mirror,
    with the proof that the body runs to a continuation that gets the inputs and the h buffer back unchanged
    and those three buffers with those pieces written. -/
noncomputable def runLast (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 : Vec F S10000x128 .f32) (xs1 : Vec F S10000x128 .f32) :
    Σ' (L8 : List (View.Piece (Elt F) S400x128 .f32)) (L9 : List (View.Piece (Elt F) S64x128 .f32)), { LS1 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _; isplitr; · ipureintro; exact harg11.read_unread _
      iexact HS0
    iexact HS1

end Cert.Kernel.Hand

end
-- ==== Proof.Kernel.Pieces.lean ====
/-
  What the three runs' stores read back as. A store through a buffer's whole rectangle leaves its value whatever
  the buffer held; a load through the whole rectangle reads the contents. So the h_struct block ends at this
  point's 400 rows computed from the adjacency tile, h and the GCN weights; the h buffer, at the first point, at h
  computed from the features; the mirror with one more slice of 400 rows written; and, at the last point, the
  pooled output at its value computed from the WHOLE mirror as it stands after that slice.
-/
import proofs.«112774_g44092134261233_cont_8to1_c_785_15_alg».proof.Proof.Kernel.RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- One store through the whole buffer reads back as the stored value. -/
theorem read_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero hz inb y⟩),
    View.canon_unit_zero hz]

/-! ## The first point -/

theorem first_h (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) (f : arg11.view.ty.Contents (Elt F)) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).2.1) = k0_pay1 x2 x3 x4 := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem first_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).1) = k0_pay2 x0 (k0_pay1 x2 x3 x4) x5 := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem first_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).2.2.1 = [(⟨Rect.unit (k0_off1 i) S400x128.size (k0_off1_inb i), k0_pay3 x0 (k0_pay1 x2 x3 x4) x5⟩ : View.Piece (Elt F) S10000x128 .f32)] := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

/-! ## A middle point -/

theorem mid_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg9.view.ty.Contents (Elt F)) :
    arg9.view.read (Elt F) (arg9.view.writes (Elt F) f (runMid c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1) = k0_pay2 x0 xs0 x5 := by
  unfold runMid; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem mid_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) :
    (runMid c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 = [(⟨Rect.unit (k0_off1 i) S400x128.size (k0_off1_inb i), k0_pay3 x0 xs0 x5⟩ : View.Piece (Elt F) S10000x128 .f32)] := by
  unfold runMid; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

/-! ## The last point -/

theorem last_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg9.view.ty.Contents (Elt F)) :
    arg9.view.read (Elt F) (arg9.view.writes (Elt F) f (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1) = k0_pay2 x0 xs0 x5 := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem last_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) :
    (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 = [(⟨Rect.unit (k0_off1 i) S400x128.size (k0_off1_inb i), k0_pay3 x0 xs0 x5⟩ : View.Piece (Elt F) S10000x128 .f32)] := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

theorem last_pool (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg10.view.ty.Contents (Elt F)) :
    arg10.view.read (Elt F) (arg10.view.writes (Elt F) f (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
      = k0_pay4 x1 (arg12.view.read (Elt F) (arg12.view.writes (Elt F) (harg12.unread xs1) [(⟨Rect.unit (k0_off1 i) S400x128.size (k0_off1_inb i), k0_pay3 x0 xs0 x5⟩ : View.Piece (Elt F) S10000x128 .f32)])) x6 x7 := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

end Cert.Kernel.Hand

end
-- ==== Proof.Kernel.Data.lean ====
/-
  The proof data of the one pipeline: what every buffer holds after the body at each grid point.

  h is computed once, at the first point, from the whole feature, weight and bias arrays, and kept in a
  scratch buffer. Point t computes 400 rows of h_struct from its adjacency tile and h; they go to the output
  block and to rows 400·t … 400·t+399 of a second scratch buffer, the mirror. So after n points the mirror's
  first 400·n rows are settled — row r holds what point r / 400 stored at local row r % 400 — and the rest
  is whatever it was. After the last point every row is settled, and the pooled output is computed from the
  whole mirror. The invariant carried from point to point says exactly that: h's buffer at h, the mirror at
  SOME contents that agree with the settled rows.
-/
import proofs.«112774_g44092134261233_cont_8to1_c_785_15_alg».proof.Proof.Kernel.Shared
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 25 points. -/
theorem N_eq : cfg0.N = 25 := N_0

/-- The first point. -/
def t0 : Fin cfg0.N := ⟨0, lt_of_lt_of_eq (by decide : 0 < 25) N_eq.symm⟩

/-! ## The input blocks at a point, at their literal types -/

abbrev blkA (c : Dev nD) (t : Fin cfg0.N) : Vec F S400x10000 .f32 := iblk m c 0 t
abbrev blkB (c : Dev nD) (t : Fin cfg0.N) : Vec F S64x10000 .f32 := iblk m c 1 t
abbrev blkX (c : Dev nD) (t : Fin cfg0.N) : Vec F S10000x128 .f32 := iblk m c 2 t
abbrev blkWin (c : Dev nD) (t : Fin cfg0.N) : Vec F S128x128 .f32 := iblk m c 3 t
abbrev blkbin (c : Dev nD) (t : Fin cfg0.N) : Vec F S128 .f32 := iblk m c 4 t
abbrev blkWgcn (c : Dev nD) (t : Fin cfg0.N) : Vec F S128x128 .f32 := iblk m c 5 t
abbrev blkWg (c : Dev nD) (t : Fin cfg0.N) : Vec F S128x128 .f32 := iblk m c 6 t
abbrev blkbg (c : Dev nD) (t : Fin cfg0.N) : Vec F S128 .f32 := iblk m c 7 t

/-! ## What the buffers hold -/

/-- h, as the first point computes it from the features, the input weights and the input bias. -/
def hVal (c : Dev nD) : Vec F S10000x128 .f32 := k0_pay1 (blkX m c t0) (blkWin m c t0) (blkbin m c t0)

/-- The 400 rows of h_struct point t leaves in the output block. -/
def hsBlk (c : Dev nD) (t : Fin cfg0.N) : Vec F S400x128 .f32 := k0_pay2 (blkA m c t) (hVal m c) (blkWgcn m c t)

/-- The same 400 rows as point t stores them into the mirror. -/
def mirBlk (c : Dev nD) (t : Fin cfg0.N) : Vec F S400x128 .f32 := k0_pay3 (blkA m c t) (hVal m c) (blkWgcn m c t)

/-- The point that stores row `y 0` of the mirror: the row divided by 400. -/
def ptOf (y : S10000x128.Idx) : Fin cfg0.N :=
  ⟨(y 0).val / 400, lt_of_lt_of_eq (by have := idx2_lt0 y; omega : (y 0).val / 400 < 25) N_eq.symm⟩

/-- The row's place inside that point's 400 rows, and the column. -/
def locOf (y : S10000x128.Idx) : S400x128.Idx :=
  ix2 (⟨(y 0).val % 400, Nat.mod_lt _ (by decide)⟩ : Fin 400) ((y 1 : Fin 128))

/-- The mirror once every point has stored its rows. -/
def mirror (c : Dev nD) : Vec F S10000x128 .f32 := fun y => mirBlk m c (ptOf y) (locOf y)

/-- The pooled output, as the last point computes it from the batch matrix, the whole mirror, the graph weights and
    the graph bias. -/
def hgVal (c : Dev nD) (t : Fin cfg0.N) : Vec F S64x128 .f32 := k0_pay4 (blkB m c t) (mirror m c) (blkWg m c t) (blkbg m c t)

/-- Contents of the mirror whose first 400·n rows are settled. -/
def MirrorUpTo (c : Dev nD) (n : ℕ) (d : Vec F S10000x128 .f32) : Prop :=
  ∀ y : S10000x128.Idx, (y 0).val < 400 * n → d y = mirror m c y

/-! ## The invariant between points -/

/-- Before the first point: both scratch buffers at anything. After n + 1 points: h's buffer at h, the mirror at some
    contents with 400·(n + 1) rows settled. -/
def PhiS (c : Dev nD) : (n : ℕ) → n ≤ cfg0.N → sProp 𝕄
  | 0, _ => Pipeline.ΦA spec0 c
  | n + 1, _ => iprop(iprop(owns (c : Thread nD τ) scH fullShare (hVal m c) ∗ (∃ d, ⌜MirrorUpTo m c (n + 1) d⌝ ∗ owns (c : Thread nD τ) scM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scH fullShare (hVal m c) ∗ (∃ d, ⌜MirrorUpTo m c (n + 1) d⌝ ∗ owns (c : Thread nD τ) scM fullShare d)) ∗ (∃ r, prngReg c r)) := rfl

theorem PhiS_pos (c : Dev nD) (n : ℕ) (h : n ≤ cfg0.N) (hz : n ≠ 0) :
    PhiS m c n h = iprop(iprop(owns (c : Thread nD τ) scH fullShare (hVal m c) ∗ (∃ d, ⌜MirrorUpTo m c n d⌝ ∗ owns (c : Thread nD τ) scM fullShare d)) ∗ (∃ r, prngReg c r)) := by
  cases n with
  | zero => exact absurd rfl hz
  | succ n => rfl

/-! ## The proof data -/

/-- The arrays as the region finds them; after the body at point t each input's buffer at its block, the h_struct
    block at that point's 400 rows, the pooled output at its value (consulted at the last point only: elsewhere the
    window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hsBlk m c t
    | ⟨9, _⟩ => hgVal m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = hsBlk m c t := by dsimp only [dats]
theorem after9 (c : Dev nD) (t : Fin cfg0.N) : (dats m 0 c).after 9 t = hgVal m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.Kernel.Hand

end
-- ==== Proof.Kernel.Body.lean ====
/-
  The body obligation of the pipeline and the run of the whole program.

  At a grid point the body is handed the invariant, each input's buffer at its block, and the two output buffers.
  Which of the three runs applies is decided by the point: the first computes h; every point computes its 400
  rows of h_struct from its adjacency tile and h and adds them to the mirror; the last also pools. The invariant
  comes back with 400 more rows of the mirror settled: a row inside the slice just stored reads that slice, any
  other row reads what was there before. After the last point all 10000 rows are settled, so what the last
  point read back IS the whole mirror, and the pooled output is its value of it.
-/
import proofs.«112774_g44092134261233_cont_8to1_c_785_15_alg».proof.Proof.Kernel.Pieces
import proofs.«112774_g44092134261233_cont_8to1_c_785_15_alg».proof.Proof.Kernel.Data
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## One more slice of the mirror -/

/-- If the first 400·t rows of the mirror are settled and point t's rows are stored at rows 400·t … 400·t+399, the
    first 400·(t+1) rows are settled. -/
theorem mirror_step (c : Dev nD) (t : Fin cfg0.N) (d : Vec F S10000x128 .f32) (hd : MirrorUpTo m c t.val d)
    (w : Vec F S400x128 .f32) (hw : w = mirBlk m c t) (hwh : scM.IsWhole) :
    MirrorUpTo m c (t.val + 1) (scM.view.read (Elt F) (scM.view.writes (Elt F) (hwh.unread d)
      [(⟨Rect.unit (k0_off1 (grid0.coords t)) S400x128.size (k0_off1_inb (grid0.coords t)), w⟩ : View.Piece (Elt F) S10000x128 .f32)])) := by
  subst hw
  intro y hy
  by_cases hrow : 400 * t.val ≤ (y 0).val
  · have hlt : (y 0).val < 400 * t.val + 400 := by omega
    refine (View.read_writes_cons_rows_of_mem scM.view (hwh.unread d) (k0_off1_inb (grid0.coords t)) (mirBlk m c t) [] y (locOf y)
      (off_eq t) ?_ ?_).trans ?_
    · show (y 0).val = 400 * t.val + (y 0).val % 400
      omega
    · rfl
    · have hp : ptOf y = t := Fin.ext (by show (y 0).val / 400 = t.val; omega)
      unfold mirror; rw [hp]
  · have hlt : (y 0).val < 400 * t.val := by omega
    refine (View.read_writes_cons_rows_of_not_mem scM.view (hwh.unread d) (k0_off1_inb (grid0.coords t)) (mirBlk m c t) [] y
      (off_eq t) rfl (Or.inl hlt)).trans ?_
    rw [View.writes_nil, Memref.IsWhole.read_unread]
    exact hd y hlt

/-- After the last point's slice every row is settled: the buffer holds the whole mirror. -/
theorem mirror_full (c : Dev nD) (t : Fin cfg0.N) (ht : t.val = 24) (d : Vec F S10000x128 .f32) (hd : MirrorUpTo m c t.val d)
    (w : Vec F S400x128 .f32) (hw : w = mirBlk m c t) (hwh : scM.IsWhole) :
    scM.view.read (Elt F) (scM.view.writes (Elt F) (hwh.unread d)
      [(⟨Rect.unit (k0_off1 (grid0.coords t)) S400x128.size (k0_off1_inb (grid0.coords t)), w⟩ : View.Piece (Elt F) S10000x128 .f32)])
      = mirror m c :=
  funext fun y => mirror_step m c t d hd w hw hwh y (by have := idx2_lt0 y; omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point. The inputs' buffers hold their blocks; the point decides the case; the invariant hands the
    body h (anything at the first point) and the mirror at some contents with the earlier rows settled, and takes them
    back with this point's rows settled too; the h_struct block comes back at this point's rows, the pooled output at
    its value at the last point and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt N_eq
  by_cases h0 : t.val % 25 = 0
  · by_cases h1 : t.val % 25 = 24
    · exfalso; omega
    · have hz : t.val = 0 := by omega
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [Dat.leavesExact_idle (dats m 0 c) 9 t (idle9 t (fun h => h1 ((condLast_iff t).mp h))) (noFlush9 t (fun h => h1 ((condLast_iff t).mp h)))]
      rw [PhiS_castSucc m c t, PhiS_zero m c _ _ hz, PhiA_eq]
      iintro ⟨⟨⟨⟨%dh, HS0⟩, ⟨%dm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexists _; iexact HS0
      isplitl [HS1]; · iexact HS1
      iintro ⟨H0, H1, H2, H3, H4, H5, H6, H7, ⟨%e8, H8⟩, H9, ⟨%es0, HS0⟩, HS1⟩
      have ht0 : t = t0 := Fin.ext hz
      isplitl [HS0 HS1 Hg]
      · isplitl [HS0 HS1]
        · isplitl [HS0]
          · unfold owns; iexists _; isplitr
            swap; · iexact HS0
            ipureintro
            unfold hVal; rw [← ht0]
            exact first_h c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm _
          · iexists _; isplitr
            swap
            · unfold owns; iexists _; isplitr
              swap; · iexact HS1
              ipureintro; rfl
            ipureintro
            rw [first_mir]
            refine mirror_step m c t dm (fun y hy => absurd hy (by rw [hz]; omega)) _ ?_ _
            unfold mirBlk hVal; rw [← ht0]
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk hVal; rw [← ht0]
        exact first_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm _
      iexists _; iexact H9
  · have hz : t.val ≠ 0 := by omega
    by_cases h1 : t.val % 25 = 24
    · have h24 : t.val = 24 := by omega
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t ((condLast_iff t).mpr h1)], after9]
      rw [PhiS_castSucc m c t, PhiS_pos m c _ _ hz]
      iintro ⟨⟨⟨HS0, ⟨%dm, %hdm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [last_mir]
            exact mirror_step m c t dm hdm _ rfl _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk
        exact last_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm _
      unfold owns; iexists _; isplitr
      swap; · iexact H9
      ipureintro
      refine (last_pool c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm _).trans ?_
      unfold hgVal
      exact congrArg (fun X => k0_pay4 (blkB m c t) X (blkWg m c t) (blkbg m c t)) (mirror_full m c t h24 dm hdm _ rfl _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [Dat.leavesExact_idle (dats m 0 c) 9 t (idle9 t (fun h => h1 ((condLast_iff t).mp h))) (noFlush9 t (fun h => h1 ((condLast_iff t).mp h)))]
      rw [PhiS_castSucc m c t, PhiS_pos m c _ _ hz]
      iintro ⟨⟨⟨HS0, ⟨%dm, %hdm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (hVal m c) dm).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      isplitl [HS1]; · iexact HS1
      iintro ⟨H0, H1, H2, H3, H4, H5, H6, H7, ⟨%e8, H8⟩, H9, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [mid_mir]
            exact mirror_step m c t dm hdm _ rfl _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk
        exact mid_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (hVal m c) dm _
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the region's own back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, ⟨%d, %hd, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 25 := N_0; omega)

/-! ## The run and the frame -/

set_option backward.isDefEq.respectTransparency.types false in
/-- Every weakly fair execution of the program terminates, every array of the pipeline at what the proof data gives
    (an input unchanged, an output at its blocks written back), every other unscoped buffer as at the launch. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KernelIdeal.Shared.lean ====
/-
  What the three runs of the kernel body and the proof data share: when each branch of the body is taken
  (the first grid point alone computes h; the last alone pools), at which points the pooled output's
  window is idle, the names of the staging buffers the body is called with at a point, the two scratch
  buffers (h, and the mirror of h_struct filled 400 rows per point), and where a point's 400 rows sit.
-/
import proofs.«112774_g44092134261233_cont_8to1_c_785_15_alg».proof.Proof.Gen.KernelIdeal.Launch
import proofs.«112774_g44092134261233_cont_8to1_c_785_15_alg».proof.Proof.Gen.KernelIdeal.Skeleton
import proofs.«112774_g44092134261233_cont_8to1_c_785_15_alg».proof.Proof.Gen.KernelIdeal.Points
import proofs.«112774_g44092134261233_cont_8to1_c_785_15_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branches -/

/-- The first branch (h is computed and stored) is taken when the grid coordinate is 0. -/
abbrev condFirst (i : grid0.Coords) : Prop :=
  (Scalar.cmpi .ne (Scalar.extui (Scalar.cmpi .eq (BitVec.ofNat 32 (i 0).val) 0#32)) 0#32) = 1#1
theorem condFirst_iff : ∀ t : Fin cfg0.N, condFirst (grid0.coords t) ↔ t.val % 25 = 0 :=
  (by decide +kernel : ∀ t : Fin grid0.N, condFirst (grid0.coords t) ↔ t.val % 25 = 0)

/-- The second branch (the pooled output is computed and stored) is taken when the grid coordinate is 24. -/
abbrev condLast (i : grid0.Coords) : Prop := k0_cond2 i = 1#1
theorem condLast_iff : ∀ t : Fin cfg0.N, condLast (grid0.coords t) ↔ t.val % 25 = 24 :=
  (by decide +kernel : ∀ t : Fin grid0.N, condLast (grid0.coords t) ↔ t.val % 25 = 24)

/-- The 400 rows a point stores into the mirror start at row 400·t. -/
theorem off_eq : ∀ t : Fin cfg0.N, k0_off1 (grid0.coords t) = ![400 * t.val, 0] :=
  (by decide +kernel : ∀ t : Fin grid0.N, k0_off1 (grid0.coords t) = ![400 * t.val, 0])

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
theorem live8 : ∀ t : Fin cfg0.N, cfg0.idle 8 (grid0.coords t) = false := by decide +kernel
/-- The pooled output's window is idle, and not written back, at every point but the last. -/
theorem idle9 : ∀ t : Fin cfg0.N, ¬condLast (grid0.coords t) → cfg0.idle 9 (grid0.coords t) = true := by decide +kernel
theorem noFlush9 : ∀ t : Fin cfg0.N, ¬condLast (grid0.coords t) → (cfg0.win 9).flush t = false := by decide +kernel
theorem live9 : ∀ t : Fin cfg0.N, condLast (grid0.coords t) → cfg0.idle 9 (grid0.coords t) = false := by decide +kernel

/-! ## The buffers the body is called with -/

abbrev ms0 (t : Fin cfg0.N) : Memref sig .tc .vmem S400x10000 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S64x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S128 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S128x128 .f32 := win0_6.stage (cfg0.slots t 6)
abbrev hms6 (t : Fin cfg0.N) : (ms6 t).IsWhole := hstage0_6 ((cfg0.slots t 6).cast nbuf0_6)
abbrev ms7 (t : Fin cfg0.N) : Memref sig .tc .vmem S128 .f32 := win0_7.stage (cfg0.slots t 7)
abbrev hms7 (t : Fin cfg0.N) : (ms7 t).IsWhole := hstage0_7 ((cfg0.slots t 7).cast nbuf0_7)
abbrev ms8 (t : Fin cfg0.N) : Memref sig .tc .vmem S400x128 .f32 := win0_8.stage (cfg0.slots t 8)
abbrev hms8 (t : Fin cfg0.N) : (ms8 t).IsWhole := hstage0_8 ((cfg0.slots t 8).cast nbuf0_8)
abbrev ms9 (t : Fin cfg0.N) : Memref sig .tc .vmem S64x128 .f32 := win0_9.stage (cfg0.slots t 9)
abbrev hms9 (t : Fin cfg0.N) : (ms9 t).IsWhole := hstage0_9 ((cfg0.slots t 9).cast nbuf0_9)
/-- The scratch operands: h, and the mirror of h_struct. -/
abbrev scH : Memref sig .tc .vmem S10000x128 .f32 := Memref.whole cc0_scratch0
abbrev scM : Memref sig .tc .vmem S10000x128 .f32 := Memref.whole cc0_scratch1

/-- What the region hands the body besides the windows: both scratch buffers at some contents, and the
    generator register at some state. -/
theorem PhiA_eq (c : Dev nD) :
    (Pipeline.ΦA spec0 c : sProp 𝕄)
      = iprop(iprop((∃ d, owns (c : Thread nD τ) scH fullShare d) ∗ (∃ d, owns (c : Thread nD τ) scM fullShare d)) ∗ (∃ r, prngReg c r)) := by
  unfold Pipeline.ΦA; rw [scopedRest0_eq]; simp only [scH, scM, owns_whole]; try rfl

end Cert.KernelIdeal.Hand

end
-- ==== Proof.KernelIdeal.RunA.lean ====
/-
  The kernel body at the FIRST grid point. Both scratch buffers are as the launch left them: the h buffer
  at anything, the mirror at some contents. The body computes h from the features and stores it whole, then
  computes this point's 400 rows of h_struct from the adjacency tile and h, stores them into the output
  block and into rows 0…399 of the mirror. The pooled output is not touched.
-/
import proofs.«112774_g44092134261233_cont_8to1_c_785_15_alg».proof.Proof.KernelIdeal.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the first point's stores leave in the h_struct block, in the h buffer and in the mirror, with
    the proof that the body, given whole buffers holding the inputs' blocks, runs to a continuation that
    gets the inputs back unchanged, the pooled output's buffer untouched, and those three buffers with
    those pieces written. The pieces are what the symbolic run finds. -/
noncomputable def runFirst (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) :
    Σ' (L8 : List (View.Piece (Elt F) S400x128 .f32)) (LS0 : List (View.Piece (Elt F) S10000x128 .f32)), { LS1 : List (View.Piece (Elt F) S10000x128 .f32) //
      ∀ (xi9 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ (∃ d, owns (c : Thread nD τ) arg11 fullShare d) ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]; · iexists _; iexact HS0
    iexact HS1

end Cert.KernelIdeal.Hand

end
-- ==== Proof.KernelIdeal.RunB.lean ====
/-
  The kernel body at a MIDDLE grid point (neither the first nor the last). The h buffer holds what the first
  point stored and is only read. The body computes this point's 400 rows of h_struct from the adjacency
  tile and h, stores them into the output block and into rows 400·t … 400·t+399 of the mirror, over
  whatever the mirror held. The pooled output is not touched.
-/
import proofs.«112774_g44092134261233_cont_8to1_c_785_15_alg».proof.Proof.KernelIdeal.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces a middle point's stores leave in the h_struct block and in the mirror, with the proof that the
    body runs to a continuation that gets the inputs, the h buffer and the pooled output's buffer back
    unchanged and those two buffers with those pieces written. -/
noncomputable def runMid (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 : Vec F S10000x128 .f32) (xs1 : Vec F S10000x128 .f32) :
    Σ' (L8 : List (View.Piece (Elt F) S400x128 .f32)), { LS1 : List (View.Piece (Elt F) S10000x128 .f32) //
      ∀ (xi9 : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9 ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9 ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, fun xi9 E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _; isplitr; · ipureintro; exact harg10.read_unread _
      iexact H9
    isplitl [HS0]
    · iexists _; isplitr; · ipureintro; exact harg11.read_unread _
      iexact HS0
    iexact HS1

end Cert.KernelIdeal.Hand

end
-- ==== Proof.KernelIdeal.RunC.lean ====
/-
  The kernel body at the LAST grid point. The h buffer holds what the first point stored and is only read.
  The body computes the last 400 rows of h_struct, stores them into the output block and into rows
  9600 … 9999 of the mirror, then reads the WHOLE mirror back, pools it with the batch matrix, applies the
  graph layer and the normalisation, and stores the pooled output.
-/
import proofs.«112774_g44092134261233_cont_8to1_c_785_15_alg».proof.Proof.KernelIdeal.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the last point's stores leave in the h_struct block, in the pooled output and in the mirror,
    with the proof that the body runs to a continuation that gets the inputs and the h buffer back unchanged
    and those three buffers with those pieces written. -/
noncomputable def runLast (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 : Vec F S10000x128 .f32) (xs1 : Vec F S10000x128 .f32) :
    Σ' (L8 : List (View.Piece (Elt F) S400x128 .f32)) (L9 : List (View.Piece (Elt F) S64x128 .f32)), { LS1 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HS0]
    · iexists _; isplitr; · ipureintro; exact harg11.read_unread _
      iexact HS0
    iexact HS1

end Cert.KernelIdeal.Hand

end
-- ==== Proof.KernelIdeal.Pieces.lean ====
/-
  What the three runs' stores read back as. A store through a buffer's whole rectangle leaves its value whatever
  the buffer held; a load through the whole rectangle reads the contents. So the h_struct block ends at this
  point's 400 rows computed from the adjacency tile, h and the GCN weights; the h buffer, at the first point, at h
  computed from the features; the mirror with one more slice of 400 rows written; and, at the last point, the
  pooled output at its value computed from the WHOLE mirror as it stands after that slice.
-/
import proofs.«112774_g44092134261233_cont_8to1_c_785_15_alg».proof.Proof.KernelIdeal.RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz1 : (![0] : Fin 1 → ℕ) = fun _ => 0 := by funext a; fin_cases a; rfl

/-- One store through the whole buffer reads back as the stored value. -/
theorem read_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero hz inb y⟩),
    View.canon_unit_zero hz]

/-! ## The first point -/

theorem first_h (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) (f : arg11.view.ty.Contents (Elt F)) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).2.1) = k0_pay1 x2 x3 x4 := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem first_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) (f : arg9.view.ty.Contents (Elt F)) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).1) = k0_pay2 x0 (k0_pay1 x2 x3 x4) x5 := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem first_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs1 : Vec F S10000x128 .f32) :
    (runFirst c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs1).2.2.1 = [(⟨Rect.unit (k0_off1 i) S400x128.size (k0_off1_inb i), k0_pay3 x0 (k0_pay1 x2 x3 x4) x5⟩ : View.Piece (Elt F) S10000x128 .f32)] := by
  unfold runFirst; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

/-! ## A middle point -/

theorem mid_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg9.view.ty.Contents (Elt F)) :
    arg9.view.read (Elt F) (arg9.view.writes (Elt F) f (runMid c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1) = k0_pay2 x0 xs0 x5 := by
  unfold runMid; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem mid_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : ¬condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) :
    (runMid c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 = [(⟨Rect.unit (k0_off1 i) S400x128.size (k0_off1_inb i), k0_pay3 x0 xs0 x5⟩ : View.Piece (Elt F) S10000x128 .f32)] := by
  unfold runMid; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

/-! ## The last point -/

theorem last_out (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg9.view.ty.Contents (Elt F)) :
    arg9.view.read (Elt F) (arg9.view.writes (Elt F) f (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1) = k0_pay2 x0 xs0 x5 := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

theorem last_mir (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) :
    (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 = [(⟨Rect.unit (k0_off1 i) S400x128.size (k0_off1_inb i), k0_pay3 x0 xs0 x5⟩ : View.Piece (Elt F) S10000x128 .f32)] := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]

theorem last_pool (c : Dev nD) (i : grid0.Coords) (arg1 : Memref sig .tc .vmem S400x10000 .f32) (harg1 : arg1.IsWhole) (arg2 : Memref sig .tc .vmem S64x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128 .f32) (harg8 : arg8.IsWhole) (arg9 : Memref sig .tc .vmem S400x128 .f32) (harg9 : arg9.IsWhole) (arg10 : Memref sig .tc .vmem S64x128 .f32) (harg10 : arg10.IsWhole) (arg11 : Memref sig .tc .vmem S10000x128 .f32) (harg11 : arg11.IsWhole) (arg12 : Memref sig .tc .vmem S10000x128 .f32) (harg12 : arg12.IsWhole) (hc0 : ¬condFirst i) (hc1 : condLast i)
    (x0 : Vec F S400x10000 .f32) (x1 : Vec F S64x10000 .f32) (x2 : Vec F S10000x128 .f32) (x3 : Vec F S128x128 .f32) (x4 : Vec F S128 .f32) (x5 : Vec F S128x128 .f32) (x6 : Vec F S128x128 .f32) (x7 : Vec F S128 .f32) (xs0 xs1 : Vec F S10000x128 .f32) (f : arg10.view.ty.Contents (Elt F)) :
    arg10.view.read (Elt F) (arg10.view.writes (Elt F) f (runLast c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1)
      = k0_pay4 x1 (arg12.view.read (Elt F) (arg12.view.writes (Elt F) (harg12.unread xs1) [(⟨Rect.unit (k0_off1 i) S400x128.size (k0_off1_inb i), k0_pay3 x0 xs0 x5⟩ : View.Piece (Elt F) S10000x128 .f32)])) x6 x7 := by
  unfold runLast; dsimp only; sl_unfold_run_names
  simp only [View.readAt_eq_ld, Memref.IsWhole.read_unread,
    View.ld_unit_zero (S := S400x10000) hz2, View.ld_unit_zero (S := S64x10000) hz2, View.ld_unit_zero (S := S10000x128) hz2,
    View.ld_unit_zero (S := S128x128) hz2, View.ld_unit_zero (S := S128) hz1, View.ld_unit_zero (S := S400x128) hz2,
    View.ld_unit_zero (S := S64x128) hz2, View.readCov_unit_zero (S := S10000x128) _ hz2]
  exact read_whole _ _ hz2 _ _

end Cert.KernelIdeal.Hand

end
-- ==== Proof.KernelIdeal.Data.lean ====
/-
  The proof data of the one pipeline: what every buffer holds after the body at each grid point.

  h is computed once, at the first point, from the whole feature, weight and bias arrays, and kept in a
  scratch buffer. Point t computes 400 rows of h_struct from its adjacency tile and h; they go to the output
  block and to rows 400·t … 400·t+399 of a second scratch buffer, the mirror. So after n points the mirror's
  first 400·n rows are settled — row r holds what point r / 400 stored at local row r % 400 — and the rest
  is whatever it was. After the last point every row is settled, and the pooled output is computed from the
  whole mirror. The invariant carried from point to point says exactly that: h's buffer at h, the mirror at
  SOME contents that agree with the settled rows.
-/
import proofs.«112774_g44092134261233_cont_8to1_c_785_15_alg».proof.Proof.KernelIdeal.Shared
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- The grid has 25 points. -/
theorem N_eq : cfg0.N = 25 := N_0

/-- The first point. -/
def t0 : Fin cfg0.N := ⟨0, lt_of_lt_of_eq (by decide : 0 < 25) N_eq.symm⟩

/-! ## The input blocks at a point, at their literal types -/

abbrev blkA (c : Dev nD) (t : Fin cfg0.N) : Vec F S400x10000 .f32 := iblk m c 0 t
abbrev blkB (c : Dev nD) (t : Fin cfg0.N) : Vec F S64x10000 .f32 := iblk m c 1 t
abbrev blkX (c : Dev nD) (t : Fin cfg0.N) : Vec F S10000x128 .f32 := iblk m c 2 t
abbrev blkWin (c : Dev nD) (t : Fin cfg0.N) : Vec F S128x128 .f32 := iblk m c 3 t
abbrev blkbin (c : Dev nD) (t : Fin cfg0.N) : Vec F S128 .f32 := iblk m c 4 t
abbrev blkWgcn (c : Dev nD) (t : Fin cfg0.N) : Vec F S128x128 .f32 := iblk m c 5 t
abbrev blkWg (c : Dev nD) (t : Fin cfg0.N) : Vec F S128x128 .f32 := iblk m c 6 t
abbrev blkbg (c : Dev nD) (t : Fin cfg0.N) : Vec F S128 .f32 := iblk m c 7 t

/-! ## What the buffers hold -/

/-- h, as the first point computes it from the features, the input weights and the input bias. -/
def hVal (c : Dev nD) : Vec F S10000x128 .f32 := k0_pay1 (blkX m c t0) (blkWin m c t0) (blkbin m c t0)

/-- The 400 rows of h_struct point t leaves in the output block. -/
def hsBlk (c : Dev nD) (t : Fin cfg0.N) : Vec F S400x128 .f32 := k0_pay2 (blkA m c t) (hVal m c) (blkWgcn m c t)

/-- The same 400 rows as point t stores them into the mirror. -/
def mirBlk (c : Dev nD) (t : Fin cfg0.N) : Vec F S400x128 .f32 := k0_pay3 (blkA m c t) (hVal m c) (blkWgcn m c t)

/-- The point that stores row `y 0` of the mirror: the row divided by 400. -/
def ptOf (y : S10000x128.Idx) : Fin cfg0.N :=
  ⟨(y 0).val / 400, lt_of_lt_of_eq (by have := idx2_lt0 y; omega : (y 0).val / 400 < 25) N_eq.symm⟩

/-- The row's place inside that point's 400 rows, and the column. -/
def locOf (y : S10000x128.Idx) : S400x128.Idx :=
  ix2 (⟨(y 0).val % 400, Nat.mod_lt _ (by decide)⟩ : Fin 400) ((y 1 : Fin 128))

/-- The mirror once every point has stored its rows. -/
def mirror (c : Dev nD) : Vec F S10000x128 .f32 := fun y => mirBlk m c (ptOf y) (locOf y)

/-- The pooled output, as the last point computes it from the batch matrix, the whole mirror, the graph weights and
    the graph bias. -/
def hgVal (c : Dev nD) (t : Fin cfg0.N) : Vec F S64x128 .f32 := k0_pay4 (blkB m c t) (mirror m c) (blkWg m c t) (blkbg m c t)

/-- Contents of the mirror whose first 400·n rows are settled. -/
def MirrorUpTo (c : Dev nD) (n : ℕ) (d : Vec F S10000x128 .f32) : Prop :=
  ∀ y : S10000x128.Idx, (y 0).val < 400 * n → d y = mirror m c y

/-! ## The invariant between points -/

/-- Before the first point: both scratch buffers at anything. After n + 1 points: h's buffer at h, the mirror at some
    contents with 400·(n + 1) rows settled. -/
def PhiS (c : Dev nD) : (n : ℕ) → n ≤ cfg0.N → sProp 𝕄
  | 0, _ => Pipeline.ΦA spec0 c
  | n + 1, _ => iprop(iprop(owns (c : Thread nD τ) scH fullShare (hVal m c) ∗ (∃ d, ⌜MirrorUpTo m c (n + 1) d⌝ ∗ owns (c : Thread nD τ) scM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scH fullShare (hVal m c) ∗ (∃ d, ⌜MirrorUpTo m c (n + 1) d⌝ ∗ owns (c : Thread nD τ) scM fullShare d)) ∗ (∃ r, prngReg c r)) := rfl

theorem PhiS_pos (c : Dev nD) (n : ℕ) (h : n ≤ cfg0.N) (hz : n ≠ 0) :
    PhiS m c n h = iprop(iprop(owns (c : Thread nD τ) scH fullShare (hVal m c) ∗ (∃ d, ⌜MirrorUpTo m c n d⌝ ∗ owns (c : Thread nD τ) scM fullShare d)) ∗ (∃ r, prngReg c r)) := by
  cases n with
  | zero => exact absurd rfl hz
  | succ n => rfl

/-! ## The proof data -/

/-- The arrays as the region finds them; after the body at point t each input's buffer at its block, the h_struct
    block at that point's 400 rows, the pooled output at its value (consulted at the last point only: elsewhere the
    window is idle); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => hsBlk m c t
    | ⟨9, _⟩ => hgVal m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = hsBlk m c t := by dsimp only [dats]
theorem after9 (c : Dev nD) (t : Fin cfg0.N) : (dats m 0 c).after 9 t = hgVal m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.KernelIdeal.Hand

end
-- ==== Proof.KernelIdeal.Body.lean ====
/-
  The body obligation of the pipeline and the run of the whole program.

  At a grid point the body is handed the invariant, each input's buffer at its block, and the two output buffers.
  Which of the three runs applies is decided by the point: the first computes h; every point computes its 400
  rows of h_struct from its adjacency tile and h and adds them to the mirror; the last also pools. The invariant
  comes back with 400 more rows of the mirror settled: a row inside the slice just stored reads that slice, any
  other row reads what was there before. After the last point all 10000 rows are settled, so what the last
  point read back IS the whole mirror, and the pooled output is its value of it.
-/
import proofs.«112774_g44092134261233_cont_8to1_c_785_15_alg».proof.Proof.KernelIdeal.Pieces
import proofs.«112774_g44092134261233_cont_8to1_c_785_15_alg».proof.Proof.KernelIdeal.Data
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## One more slice of the mirror -/

/-- If the first 400·t rows of the mirror are settled and point t's rows are stored at rows 400·t … 400·t+399, the
    first 400·(t+1) rows are settled. -/
theorem mirror_step (c : Dev nD) (t : Fin cfg0.N) (d : Vec F S10000x128 .f32) (hd : MirrorUpTo m c t.val d)
    (w : Vec F S400x128 .f32) (hw : w = mirBlk m c t) (hwh : scM.IsWhole) :
    MirrorUpTo m c (t.val + 1) (scM.view.read (Elt F) (scM.view.writes (Elt F) (hwh.unread d)
      [(⟨Rect.unit (k0_off1 (grid0.coords t)) S400x128.size (k0_off1_inb (grid0.coords t)), w⟩ : View.Piece (Elt F) S10000x128 .f32)])) := by
  subst hw
  intro y hy
  by_cases hrow : 400 * t.val ≤ (y 0).val
  · have hlt : (y 0).val < 400 * t.val + 400 := by omega
    refine (View.read_writes_cons_rows_of_mem scM.view (hwh.unread d) (k0_off1_inb (grid0.coords t)) (mirBlk m c t) [] y (locOf y)
      (off_eq t) ?_ ?_).trans ?_
    · show (y 0).val = 400 * t.val + (y 0).val % 400
      omega
    · rfl
    · have hp : ptOf y = t := Fin.ext (by show (y 0).val / 400 = t.val; omega)
      unfold mirror; rw [hp]
  · have hlt : (y 0).val < 400 * t.val := by omega
    refine (View.read_writes_cons_rows_of_not_mem scM.view (hwh.unread d) (k0_off1_inb (grid0.coords t)) (mirBlk m c t) [] y
      (off_eq t) rfl (Or.inl hlt)).trans ?_
    rw [View.writes_nil, Memref.IsWhole.read_unread]
    exact hd y hlt

/-- After the last point's slice every row is settled: the buffer holds the whole mirror. -/
theorem mirror_full (c : Dev nD) (t : Fin cfg0.N) (ht : t.val = 24) (d : Vec F S10000x128 .f32) (hd : MirrorUpTo m c t.val d)
    (w : Vec F S400x128 .f32) (hw : w = mirBlk m c t) (hwh : scM.IsWhole) :
    scM.view.read (Elt F) (scM.view.writes (Elt F) (hwh.unread d)
      [(⟨Rect.unit (k0_off1 (grid0.coords t)) S400x128.size (k0_off1_inb (grid0.coords t)), w⟩ : View.Piece (Elt F) S10000x128 .f32)])
      = mirror m c :=
  funext fun y => mirror_step m c t d hd w hw hwh y (by have := idx2_lt0 y; omega)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 14400000 in
/-- The body at any point. The inputs' buffers hold their blocks; the point decides the case; the invariant hands the
    body h (anything at the first point) and the mirror at some contents with the earlier rows settled, and takes them
    back with this point's rows settled too; the h_struct block comes back at this point's rows, the pooled output at
    its value at the last point and untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt N_eq
  by_cases h0 : t.val % 25 = 0
  · by_cases h1 : t.val % 25 = 24
    · exfalso; omega
    · have hz : t.val = 0 := by omega
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [Dat.leavesExact_idle (dats m 0 c) 9 t (idle9 t (fun h => h1 ((condLast_iff t).mp h))) (noFlush9 t (fun h => h1 ((condLast_iff t).mp h)))]
      rw [PhiS_castSucc m c t, PhiS_zero m c _ _ hz, PhiA_eq]
      iintro ⟨⟨⟨⟨%dh, HS0⟩, ⟨%dm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFirst c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexists _; iexact HS0
      isplitl [HS1]; · iexact HS1
      iintro ⟨H0, H1, H2, H3, H4, H5, H6, H7, ⟨%e8, H8⟩, H9, ⟨%es0, HS0⟩, HS1⟩
      have ht0 : t = t0 := Fin.ext hz
      isplitl [HS0 HS1 Hg]
      · isplitl [HS0 HS1]
        · isplitl [HS0]
          · unfold owns; iexists _; isplitr
            swap; · iexact HS0
            ipureintro
            unfold hVal; rw [← ht0]
            exact first_h c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm _
          · iexists _; isplitr
            swap
            · unfold owns; iexists _; isplitr
              swap; · iexact HS1
              ipureintro; rfl
            ipureintro
            rw [first_mir]
            refine mirror_step m c t dm (fun y hy => absurd hy (by rw [hz]; omega)) _ ?_ _
            unfold mirBlk hVal; rw [← ht0]
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk hVal; rw [← ht0]
        exact first_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) ((condFirst_iff t).mpr h0) (fun h => h1 ((condLast_iff t).mp h)) (iblk m c 0 t) (iblk m c 1 t) (iblk m c 2 t) (iblk m c 3 t) (iblk m c 4 t) (iblk m c 5 t) (iblk m c 6 t) (iblk m c 7 t) dm _
      iexists _; iexact H9
  · have hz : t.val ≠ 0 := by omega
    by_cases h1 : t.val % 25 = 24
    · have h24 : t.val = 24 := by omega
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [show (dats m 0 c).leavesExact 9 t = owns (c : Thread nD τ) (ms9 t) fullShare ((dats m 0 c).after 9 t) from by
        unfold Dat.leavesExact; rw [live9 t ((condLast_iff t).mpr h1)], after9]
      rw [PhiS_castSucc m c t, PhiS_pos m c _ _ hz]
      iintro ⟨⟨⟨HS0, ⟨%dm, %hdm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runLast c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [last_mir]
            exact mirror_step m c t dm hdm _ rfl _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk
        exact last_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm _
      unfold owns; iexists _; isplitr
      swap; · iexact H9
      ipureintro
      refine (last_pool c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) ((condLast_iff t).mpr h1) (iblk m c 0 t) (iblk m c 1 t) (iblk m c 2 t) (iblk m c 3 t) (iblk m c 4 t) (iblk m c 5 t) (iblk m c 6 t) (iblk m c 7 t) (hVal m c) dm _).trans ?_
      unfold hgVal
      exact congrArg (fun X => k0_pay4 (blkB m c t) X (blkWg m c t) (blkbg m c t)) (mirror_full m c t h24 dm hdm _ rfl _)
    · rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t], after2]
      rw [show (dats m 0 c).leavesExact 3 t = owns (c : Thread nD τ) (ms3 t) fullShare ((dats m 0 c).after 3 t) from by
        unfold Dat.leavesExact; rw [live3 t], after3]
      rw [show (dats m 0 c).leavesExact 4 t = owns (c : Thread nD τ) (ms4 t) fullShare ((dats m 0 c).after 4 t) from by
        unfold Dat.leavesExact; rw [live4 t], after4]
      rw [show (dats m 0 c).leavesExact 5 t = owns (c : Thread nD τ) (ms5 t) fullShare ((dats m 0 c).after 5 t) from by
        unfold Dat.leavesExact; rw [live5 t], after5]
      rw [show (dats m 0 c).leavesExact 6 t = owns (c : Thread nD τ) (ms6 t) fullShare ((dats m 0 c).after 6 t) from by
        unfold Dat.leavesExact; rw [live6 t], after6]
      rw [show (dats m 0 c).leavesExact 7 t = owns (c : Thread nD τ) (ms7 t) fullShare ((dats m 0 c).after 7 t) from by
        unfold Dat.leavesExact; rw [live7 t], after7]
      rw [show (dats m 0 c).leavesExact 8 t = owns (c : Thread nD τ) (ms8 t) fullShare ((dats m 0 c).after 8 t) from by
        unfold Dat.leavesExact; rw [live8 t], after8]
      rw [Dat.leavesExact_idle (dats m 0 c) 9 t (idle9 t (fun h => h1 ((condLast_iff t).mp h))) (noFlush9 t (fun h => h1 ((condLast_iff t).mp h)))]
      rw [PhiS_castSucc m c t, PhiS_pos m c _ _ hz]
      iintro ⟨⟨⟨HS0, ⟨%dm, %hdm, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runMid c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (hVal m c) dm).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      isplitl [HS1]; · iexact HS1
      iintro ⟨H0, H1, H2, H3, H4, H5, H6, H7, ⟨%e8, H8⟩, H9, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            ipureintro
            rw [mid_mir]
            exact mirror_step m c t dm hdm _ rfl _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        unfold hsBlk
        exact mid_out c (grid0.coords t) (ms0 t) (hms0 t) (ms1 t) (hms1 t) (ms2 t) (hms2 t) (ms3 t) (hms3 t) (ms4 t) (hms4 t) (ms5 t) (hms5 t) (ms6 t) (hms6 t) (ms7 t) (hms7 t) (ms8 t) (hms8 t) (ms9 t) (hms9 t) scH (Memref.isWhole_whole _) scM (Memref.isWhole_whole _) (fun h => h0 ((condFirst_iff t).mp h)) (fun h => h1 ((condLast_iff t).mp h)) (iblk m c 0 t) (iblk m c 1 t) (iblk m c 2 t) (iblk m c 3 t) (iblk m c 4 t) (iblk m c 5 t) (iblk m c 6 t) (iblk m c 7 t) (hVal m c) dm _
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the region's own back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, ⟨%d, %hd, HS1⟩⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 25 := N_0; omega)

/-! ## The run and the frame -/

set_option backward.isDefEq.respectTransparency.types false in
/-- Every weakly fair execution of the program terminates, every array of the pipeline at what the proof data gives
    (an input unchanged, an output at its blocks written back), every other unscoped buffer as at the launch. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Spec.lean ====
/-
  What both programs compute, row by row, on the extended reals.

  With X the node features, A the adjacency, B the pooling matrix:
    h        = max(X · W_inᵀ + b_in, 0)                    (one row of h per node)
    h_struct = rows of max((A · h) · W_gcn, 0), each divided by max(‖row‖₂, ε)
    h_graph  = rows of max((B · h_struct) · W_gᵀ + b_g, 0), each divided by max(‖row‖₂, ε)
  Every stage acts on ONE row of its left operand at a time: row i of the result depends on
  row i of the left matrix only. That is what lets a tile of 400 adjacency rows be processed
  alone and land in rows 400·t … 400·t+399 of the whole result. The functions below are
  therefore functions of a ROW (a function of the column index) and of the whole right operands.
-/
import Idealize.ShloMosaic.PureOps.Ideal
import Idealize.ShloMosaic.Lib.ValueIdx

noncomputable section

open scoped BigOperators

namespace Cert.Spec

open Idealize.ShloMosaic

/-- A rank-2 array of extended reals as a matrix: entry (i, j). -/
def mat {n0 n1 : Nat} (v : (⟨2, ![n0, n1]⟩ : Shape).Idx → EReal) : Fin n0 → Fin n1 → EReal :=
  fun i j => v (ValueIdx.ix2 i j)

/-- A rank-1 array of extended reals as a row: entry j. -/
def row {n : Nat} (v : (⟨1, ![n]⟩ : Shape).Idx → EReal) : Fin n → EReal := fun j => v (ValueIdx.ix1 j)

/-- The floor put under a row's norm: the f32 nearest to 1e-12, the same word in both programs. -/
def eps : EReal := Ideal.ofBits .f32 0x2B8CBCCC#32

/-- A row times a matrix: entry j is the sum over k of row k times M k j. -/
def rowMul {K N : Nat} (r : Fin K → EReal) (M : Fin K → Fin N → EReal) : Fin N → EReal :=
  fun j => ∑ k : Fin K, r k * M k j

/-- A row times the TRANSPOSE of a matrix: entry j is the sum over k of row k times M j k. -/
def rowMulT {K N : Nat} (r : Fin K → EReal) (M : Fin N → Fin K → EReal) : Fin N → EReal :=
  fun j => ∑ k : Fin K, r k * M j k

/-- The positive part of a row, entry by entry. -/
def relu {N : Nat} (r : Fin N → EReal) : Fin N → EReal := fun j => max (r j) 0

/-- A row divided by its Euclidean norm, the norm floored at ε. -/
def l2n {N : Nat} (r : Fin N → EReal) : Fin N → EReal :=
  fun j => Ideal.div (r j) (max (Ideal.sqrt (∑ k : Fin N, r k * r k)) eps)

/-- One row of h: the positive part of (row of X) · W_inᵀ + b_in. -/
def hRow (x : Fin 128 → EReal) (Win : Fin 128 → Fin 128 → EReal) (bin : Fin 128 → EReal) : Fin 128 → EReal :=
  relu fun j => rowMulT x Win j + bin j

/-- One row of h_struct: (row of A) · h, times W_gcn, positive part, normalised. -/
def hsRow (a : Fin 10000 → EReal) (h : Fin 10000 → Fin 128 → EReal) (Wgcn : Fin 128 → Fin 128 → EReal) :
    Fin 128 → EReal :=
  l2n (relu (rowMul (rowMul a h) Wgcn))

/-- One row of h_graph: (row of B) · h_struct, times W_gᵀ, plus b_g, positive part, normalised. -/
def hgRow (b : Fin 10000 → EReal) (hs : Fin 10000 → Fin 128 → EReal) (Wg : Fin 128 → Fin 128 → EReal)
    (bg : Fin 128 → EReal) : Fin 128 → EReal :=
  l2n (relu fun j => rowMulT (rowMul b hs) Wg j + bg j)

/-- h as a matrix, from the argument arrays. -/
def hMat (X : Fin 10000 → Fin 128 → EReal) (Win : Fin 128 → Fin 128 → EReal) (bin : Fin 128 → EReal) :
    Fin 10000 → Fin 128 → EReal :=
  fun i => hRow (X i) Win bin

/-- h_struct as a matrix, from the argument arrays. -/
def hsMat (A : Fin 10000 → Fin 10000 → EReal) (X : Fin 10000 → Fin 128 → EReal) (Win : Fin 128 → Fin 128 → EReal)
    (bin : Fin 128 → EReal) (Wgcn : Fin 128 → Fin 128 → EReal) : Fin 10000 → Fin 128 → EReal :=
  fun i => hsRow (A i) (hMat X Win bin) Wgcn

/-- h_graph as a matrix, from the argument arrays. -/
def hgMat (A : Fin 10000 → Fin 10000 → EReal) (B : Fin 64 → Fin 10000 → EReal) (X : Fin 10000 → Fin 128 → EReal)
    (Win : Fin 128 → Fin 128 → EReal) (bin : Fin 128 → EReal) (Wgcn : Fin 128 → Fin 128 → EReal)
    (Wg : Fin 128 → Fin 128 → EReal) (bg : Fin 128 → EReal) : Fin 64 → Fin 128 → EReal :=
  fun b => hgRow (B b) (hsMat A X Win bin Wgcn) Wg bg

/-! ## The two results as arrays of the argument arrays -/

/-- h_struct, entry (y 0, y 1), from the adjacency, the features, the input weights and bias, and the GCN weights. -/
def hsArr (A : (⟨2, ![10000, 10000]⟩ : Shape).Idx → EReal) (X : (⟨2, ![10000, 128]⟩ : Shape).Idx → EReal)
    (Win : (⟨2, ![128, 128]⟩ : Shape).Idx → EReal) (bin : (⟨1, ![128]⟩ : Shape).Idx → EReal)
    (Wgcn : (⟨2, ![128, 128]⟩ : Shape).Idx → EReal) : (⟨2, ![10000, 128]⟩ : Shape).Idx → EReal :=
  fun y => hsMat (mat A) (mat X) (mat Win) (row bin) (mat Wgcn) (y 0) (y 1)

/-- h_graph, entry (y 0, y 1), from all eight argument arrays. -/
def hgArr (A : (⟨2, ![10000, 10000]⟩ : Shape).Idx → EReal) (B : (⟨2, ![64, 10000]⟩ : Shape).Idx → EReal)
    (X : (⟨2, ![10000, 128]⟩ : Shape).Idx → EReal) (Win : (⟨2, ![128, 128]⟩ : Shape).Idx → EReal)
    (bin : (⟨1, ![128]⟩ : Shape).Idx → EReal) (Wgcn : (⟨2, ![128, 128]⟩ : Shape).Idx → EReal)
    (Wg : (⟨2, ![128, 128]⟩ : Shape).Idx → EReal) (bg : (⟨1, ![128]⟩ : Shape).Idx → EReal) :
    (⟨2, ![64, 128]⟩ : Shape).Idx → EReal :=
  fun y => hgMat (mat A) (mat B) (mat X) (mat Win) (row bin) (mat Wgcn) (mat Wg) (row bg) (y 0) (y 1)

end Cert.Spec

end
-- ==== Proof.PayValue.lean ====
/-
  The kernel body's four stored values, read at an index at the ideal instance, are the specification's rows.

  Each stored value is a short chain of array operations. Read at entry (p, q):
  a product into a zero accumulator is the sum over the contracted index of the operands' products
  (the contraction index, a one-coordinate multi-index, is re-indexed by its coordinate);
  the bias, cast to one row and broadcast over the rows, is its entry q;
  the lane sum of the squares is the sum over the 128 columns of row p;
  the column of floored norms, broadcast over the columns, is its entry of row p.
  Put together these are the specification's row functions, term by term.
-/
import proofs.«112774_g44092134261233_cont_8to1_c_785_15_alg».proof.Proof.Gen.KernelIdeal.Skeleton
import proofs.«112774_g44092134261233_cont_8to1_c_785_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen Cert.Spec

/-! ## The five products, read at an entry

For each product: the left operand's index at output entry i and contraction index q has i's row on its
axis 0 and q's coordinate on its contracted axis 1; the right operand's index has q's coordinate on its
contracted axis and i's column on the other. Three products contract the right operand's axis 0 (a plain
product), two its axis 1 (a product with the transpose). -/

theorem lhs_mmA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_mmA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_mmA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_mmA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A tile of adjacency rows times h: entry (p, q) is the sum over k of (tile p k) · (h k q). -/
theorem mmA_apply (a : FVec Ideal S400x10000 .f32) (b : FVec Ideal S10000x128 .f32) (p : Fin 400) (q : Fin 128) :
    matmul dot_S400x10000_S10000x128_S400x128_1_0_0_1_n_n none a b (constant S400x128 .f32 0x00000000#32) (ix2 p q)
      = ∑ k : Fin 10000, a (ix2 p k) * b (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_mmA_0 _ _
    | ⟨1, _⟩ => exact (lhs_mmA_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_mmA_0 _ _).trans hk
    | ⟨1, _⟩ => exact rhs_mmA_1 _ _)
  rw [el, er]

theorem lhs_mmB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_mmB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_mmB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_mmB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A [400,128] matrix times the GCN weights: entry (p, q) is the sum over k of (x p k) · (W k q). -/
theorem mmB_apply (a : FVec Ideal S400x128 .f32) (b : FVec Ideal S128x128 .f32) (p : Fin 400) (q : Fin 128) :
    matmul dot_S400x128_S128x128_S400x128_1_0_0_1_n_n none a b (constant S400x128 .f32 0x00000000#32) (ix2 p q)
      = ∑ k : Fin 128, a (ix2 p k) * b (ix2 k q) := by
  simp only [matmul]
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k := funext fun a => Fin.ext (by
    match a with
    | ⟨0, _⟩ => exact lhs_mmB_0 _ _
    | ⟨1, _⟩ => exact (lhs_mmB_1 _ _).trans hk)
  have er : dot_S400x128_S128x128_S400x128_1_0_0_1_n_n.rhsIdx (ix2 p q) ((contrEquiv1 dot_S400x128_S128x128_S400x128_1_0_0_1_n_n 128 rfl rfl).symm k) = ix2 k q := funext fun a => Fin.ext (by
    match a with
    | ⟨0, _⟩ => exact (rhs_mmB_0 _ _).trans hk
    | ⟨1, _⟩ => exact rhs_mmB_1 _ _)
  rw [el, er]

theorem lhs_mmC_0 (i : S64x128.Idx) (q : dot_S64x10000_S10000x128_S64x128_1_0_0_1_n_n.contr.Idx) :
    (dot_S64x10000_S10000x128_S64x128_1_0_0_1_n_n.lhsIdx i q 0).val = (i 0).val := by
  unfold DotDims.lhsIdx
  rw [dif_neg (show ¬(0 : Fin S64x10000.rank) ∈ dot_S64x10000_S10000x128_S64x128_1_0_0_1_n_n.lhsBatch by decide), dif_pos (show (0 : Fin S64x10000.rank) ∈ dot_S64x10000_S10000x128_S64x128_1_0_0_1_n_n.lhsNonContracting by decide)]
  rfl
theorem lhs_mmC_1 (i : S64x128.Idx) (q : dot_S64x10000_S10000x128_S64x128_1_0_0_1_n_n.contr.Idx) :
    (dot_S64x10000_S10000x128_S64x128_1_0_0_1_n_n.lhsIdx i q 1).val = (q ⟨0, by decide⟩).val :=
  dot_S64x10000_S10000x128_S64x128_1_0_0_1_n_n.lhsIdx_val_of_single rfl i q
theorem rhs_mmC_0 (i : S64x128.Idx) (q : dot_S64x10000_S10000x128_S64x128_1_0_0_1_n_n.contr.Idx) :
    (dot_S64x10000_S10000x128_S64x128_1_0_0_1_n_n.rhsIdx i q 0).val = (q ⟨0, by decide⟩).val :=
  dot_S64x10000_S10000x128_S64x128_1_0_0_1_n_n.rhsIdx_val_of_single rfl i q
theorem rhs_mmC_1 (i : S64x128.Idx) (q : dot_S64x10000_S10000x128_S64x128_1_0_0_1_n_n.contr.Idx) :
    (dot_S64x10000_S10000x128_S64x128_1_0_0_1_n_n.rhsIdx i q 1).val = (i 1).val := by
  unfold DotDims.rhsIdx
  rw [dif_neg (show ¬(1 : Fin S10000x128.rank) ∈ dot_S64x10000_S10000x128_S64x128_1_0_0_1_n_n.rhsBatch by decide), dif_pos (show (1 : Fin S10000x128.rank) ∈ dot_S64x10000_S10000x128_S64x128_1_0_0_1_n_n.rhsNonContracting by decide)]
  rfl

/-- The pooling matrix times h_struct: entry (p, q) is the sum over k of (B p k) · (hs k q). -/
theorem mmC_apply (a : FVec Ideal S64x10000 .f32) (b : FVec Ideal S10000x128 .f32) (p : Fin 64) (q : Fin 128) :
    matmul dot_S64x10000_S10000x128_S64x128_1_0_0_1_n_n none a b (constant S64x128 .f32 0x00000000#32) (ix2 p q)
      = ∑ k : Fin 10000, a (ix2 p k) * b (ix2 k q) := by
  simp only [matmul]
  rw [Ideal.matmul_constant_zero_apply, ← Equiv.sum_comp (contrEquiv1 dot_S64x10000_S10000x128_S64x128_1_0_0_1_n_n 10000 rfl rfl).symm]
  refine Finset.sum_congr rfl fun k _ => ?_
  have hk := contrEquiv1_symm_val dot_S64x10000_S10000x128_S64x128_1_0_0_1_n_n 10000 rfl rfl k
  have el : dot_S64x10000_S10000x128_S64x128_1_0_0_1_n_n.lhsIdx (ix2 p q) ((contrEquiv1 dot_S64x10000_S10000x128_S64x128_1_0_0_1_n_n 10000 rfl rfl).symm k) = ix2 p k := funext fun a => Fin.ext (by
    match a with
    | ⟨0, _⟩ => exact lhs_mmC_0 _ _
    | ⟨1, _⟩ => exact (lhs_mmC_1 _ _).trans hk)
  have er : dot_S64x10000_S10000x128_S64x128_1_0_0_1_n_n.rhsIdx (ix2 p q) ((contrEquiv1 dot_S64x10000_S10000x128_S64x128_1_0_0_1_n_n 10000 rfl rfl).symm k) = ix2 k q := funext fun a => Fin.ext (by
    match a with
    | ⟨0, _⟩ => exact (rhs_mmC_0 _ _).trans hk
    | ⟨1, _⟩ => exact rhs_mmC_1 _ _)
  rw [el, er]

theorem lhs_mmD_0 (i : S64x128.Idx) (q : dot_S64x128_S128x128_S64x128_1_1_0_0_n_n.contr.Idx) :
    (dot_S64x128_S128x128_S64x128_1_1_0_0_n_n.lhsIdx i q 0).val = (i 0).val := by
  unfold DotDims.lhsIdx
  rw [dif_neg (show ¬(0 : Fin S64x128.rank) ∈ dot_S64x128_S128x128_S64x128_1_1_0_0_n_n.lhsBatch by decide), dif_pos (show (0 : Fin S64x128.rank) ∈ dot_S64x128_S128x128_S64x128_1_1_0_0_n_n.lhsNonContracting by decide)]
  rfl
theorem lhs_mmD_1 (i : S64x128.Idx) (q : dot_S64x128_S128x128_S64x128_1_1_0_0_n_n.contr.Idx) :
    (dot_S64x128_S128x128_S64x128_1_1_0_0_n_n.lhsIdx i q 1).val = (q ⟨0, by decide⟩).val :=
  dot_S64x128_S128x128_S64x128_1_1_0_0_n_n.lhsIdx_val_of_single rfl i q
theorem rhs_mmD_1 (i : S64x128.Idx) (q : dot_S64x128_S128x128_S64x128_1_1_0_0_n_n.contr.Idx) :
    (dot_S64x128_S128x128_S64x128_1_1_0_0_n_n.rhsIdx i q 1).val = (q ⟨0, by decide⟩).val :=
  dot_S64x128_S128x128_S64x128_1_1_0_0_n_n.rhsIdx_val_of_single rfl i q
theorem rhs_mmD_0 (i : S64x128.Idx) (q : dot_S64x128_S128x128_S64x128_1_1_0_0_n_n.contr.Idx) :
    (dot_S64x128_S128x128_S64x128_1_1_0_0_n_n.rhsIdx i q 0).val = (i 1).val := by
  unfold DotDims.rhsIdx
  rw [dif_neg (show ¬(0 : Fin S128x128.rank) ∈ dot_S64x128_S128x128_S64x128_1_1_0_0_n_n.rhsBatch by decide), dif_pos (show (0 : Fin S128x128.rank) ∈ dot_S64x128_S128x128_S64x128_1_1_0_0_n_n.rhsNonContracting by decide)]
  rfl

/-- A [64,128] matrix times the TRANSPOSE of the graph weights: entry (p, q) is the sum over k of (x p k) · (W q k). -/
theorem mmD_apply (a : FVec Ideal S64x128 .f32) (b : FVec Ideal S128x128 .f32) (p : Fin 64) (q : Fin 128) :
    matmul dot_S64x128_S128x128_S64x128_1_1_0_0_n_n none a b (constant S64x128 .f32 0x00000000#32) (ix2 p q)
      = ∑ k : Fin 128, a (ix2 p k) * b (ix2 q k) := by
  simp only [matmul]
  rw [Ideal.matmul_constant_zero_apply, ← Equiv.sum_comp (contrEquiv1 dot_S64x128_S128x128_S64x128_1_1_0_0_n_n 128 rfl rfl).symm]
  refine Finset.sum_congr rfl fun k _ => ?_
  have hk := contrEquiv1_symm_val dot_S64x128_S128x128_S64x128_1_1_0_0_n_n 128 rfl rfl k
  have el : dot_S64x128_S128x128_S64x128_1_1_0_0_n_n.lhsIdx (ix2 p q) ((contrEquiv1 dot_S64x128_S128x128_S64x128_1_1_0_0_n_n 128 rfl rfl).symm k) = ix2 p k := funext fun a => Fin.ext (by
    match a with
    | ⟨0, _⟩ => exact lhs_mmD_0 _ _
    | ⟨1, _⟩ => exact (lhs_mmD_1 _ _).trans hk)
  have er : dot_S64x128_S128x128_S64x128_1_1_0_0_n_n.rhsIdx (ix2 p q) ((contrEquiv1 dot_S64x128_S128x128_S64x128_1_1_0_0_n_n 128 rfl rfl).symm k) = ix2 q k := funext fun a => Fin.ext (by
    match a with
    | ⟨0, _⟩ => exact rhs_mmD_0 _ _
    | ⟨1, _⟩ => exact (rhs_mmD_1 _ _).trans hk)
  rw [el, er]

theorem lhs_mmE_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_mmE_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_mmE_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q
theorem rhs_mmE_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl

/-- The features times the TRANSPOSE of the input weights: entry (p, q) is the sum over k of (X p k) · (W q k). -/
theorem mmE_apply (a : FVec Ideal S10000x128 .f32) (b : FVec Ideal S128x128 .f32) (p : Fin 10000) (q : Fin 128) :
    matmul dot_S10000x128_S128x128_S10000x128_1_1_0_0_n_n none a b (constant S10000x128 .f32 0x00000000#32) (ix2 p q)
      = ∑ k : Fin 128, a (ix2 p k) * b (ix2 q k) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k := funext fun a => Fin.ext (by
    match a with
    | ⟨0, _⟩ => exact lhs_mmE_0 _ _
    | ⟨1, _⟩ => exact (lhs_mmE_1 _ _).trans hk)
  have er : dot_S10000x128_S128x128_S10000x128_1_1_0_0_n_n.rhsIdx (ix2 p q) ((contrEquiv1 dot_S10000x128_S128x128_S10000x128_1_1_0_0_n_n 128 rfl rfl).symm k) = ix2 q k := funext fun a => Fin.ext (by
    match a with
    | ⟨0, _⟩ => exact rhs_mmE_0 _ _
    | ⟨1, _⟩ => exact (rhs_mmE_1 _ _).trans hk)
  rw [el, er]

/-! ## The shape operations of a keep-dims row norm, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sums -/

/-- The sum over the 128 lanes of row p of a [400,128] array. -/
theorem rowsum400_apply (x : FVec Ideal S400x128 .f32) (p : Fin 400) :
    multiReduction .add [1] S400 x 0x00000000#32 reduces_S400x128_S400 (.inl rfl) rfl (ix1 p) = ∑ k : Fin 128, x (ix2 p k) := by
  refine (Ideal.multiReduction_add_single x _ _ _ _ (ix1 p)).trans ?_
  refine Finset.sum_congr rfl fun k _ => congrArg x ?_
  funext c
  apply Fin.ext
  match c with
  | ⟨0, _⟩ => rfl
  | ⟨1, _⟩ => rfl

/-- The sum over the 128 lanes of row p of a [64,128] array. -/
theorem rowsum64_apply (x : FVec Ideal S64x128 .f32) (p : Fin 64) :
    multiReduction .add [1] S64 x 0x00000000#32 reduces_S64x128_S64 (.inl rfl) rfl (ix1 p) = ∑ k : Fin 128, x (ix2 p k) := by
  refine (Ideal.multiReduction_add_single x _ _ _ _ (ix1 p)).trans ?_
  refine Finset.sum_congr rfl fun k _ => congrArg x ?_
  funext c
  apply Fin.ext
  match c with
  | ⟨0, _⟩ => rfl
  | ⟨1, _⟩ => rfl

/-! ## A row divided by its floored norm -/

/-- Each row of a [400,128] array divided by the larger of its Euclidean norm and ε: the specification's `l2n` of that row. -/
theorem norm400_apply (x : FVec Ideal S400x128 .f32) (p : Fin 400) (q : Fin 128) :
    divf x (broadcastTo S400x128 (maximumf (sqrt (shapeCast S400x1 (multiReduction .add [1] S400 (mulf x x) 0x00000000#32 reduces_S400x128_S400 (.inl rfl) rfl) shapeCasts_S400_S400x1)) (broadcast S400x1 (Scalar.ofBits .f32 0x2B8CBCCC#32))) broadcasts_S400x1_S400x128) (ix2 p q)
      = l2n (fun j => x (ix2 p j)) q := by
  rw [divf_apply, broadcastTo_a1_ab_apply, maximumf_apply, broadcast_apply]
  show Ideal.div (x (ix2 p q)) (max (Ideal.sqrt (shapeCast S400x1 _ shapeCasts_S400_S400x1 (ix2 p (0 : Fin 1)))) eps) = _
  rw [shapeCast_a_a1_apply, rowsum400_apply]
  rfl

/-- Each row of a [64,128] array divided by the larger of its Euclidean norm and ε: the specification's `l2n` of that row. -/
theorem norm64_apply (x : FVec Ideal S64x128 .f32) (p : Fin 64) (q : Fin 128) :
    divf x (broadcastTo S64x128 (maximumf (sqrt (shapeCast S64x1 (multiReduction .add [1] S64 (mulf x x) 0x00000000#32 reduces_S64x128_S64 (.inl rfl) rfl) shapeCasts_S64_S64x1)) (broadcast S64x1 (Scalar.ofBits .f32 0x2B8CBCCC#32))) broadcasts_S64x1_S64x128) (ix2 p q)
      = l2n (fun j => x (ix2 p j)) q := by
  rw [divf_apply, broadcastTo_a1_ab_apply, maximumf_apply, broadcast_apply]
  show Ideal.div (x (ix2 p q)) (max (Ideal.sqrt (shapeCast S64x1 _ shapeCasts_S64_S64x1 (ix2 p (0 : Fin 1)))) eps) = _
  rw [shapeCast_a_a1_apply, rowsum64_apply]
  rfl

/-! ## The positive parts, before normalising -/

/-- The positive part of (tile · h) · W_gcn at (p, j): the specification's row before normalising. -/
theorem relu2_apply (v3 : FVec Ideal S400x10000 .f32) (v4 : FVec Ideal S10000x128 .f32) (v6 : FVec Ideal S128x128 .f32)
    (p : Fin 400) (j : Fin 128) :
    (maximumf (matmul dot_S400x128_S128x128_S400x128_1_0_0_1_n_n none
        (matmul dot_S400x10000_S10000x128_S400x128_1_0_0_1_n_n none v3 v4 (constant S400x128 .f32 0x00000000#32)) v6
        (constant S400x128 .f32 0x00000000#32)) (broadcast S400x128 (Scalar.ofBits .f32 0x00000000#32)) : FVec Ideal S400x128 .f32) (ix2 p j)
      = relu (rowMul (rowMul (mat v3 p) (mat v4)) (mat v6)) j := by
  rw [maximumf_apply, broadcast_apply, mmB_apply]
  simp only [mmA_apply]
  show max _ (Ideal.ofBits .f32 0x00000000#32) = _
  rw [Ideal.ofBits_zero_f32]
  rfl

/-- The positive part of ((pooling · h_struct) · W_gᵀ + b_g) at (b, j): the specification's row before normalising. -/
theorem relu4_apply (v27 : FVec Ideal S64x10000 .f32) (v28 : FVec Ideal S10000x128 .f32) (v30 : FVec Ideal S128x128 .f32)
    (v32 : FVec Ideal S128 .f32) (b : Fin 64) (j : Fin 128) :
    (maximumf (addf (matmul dot_S64x128_S128x128_S64x128_1_1_0_0_n_n none
          (matmul dot_S64x10000_S10000x128_S64x128_1_0_0_1_n_n none v27 v28 (constant S64x128 .f32 0x00000000#32)) v30
          (constant S64x128 .f32 0x00000000#32))
        (broadcastTo S64x128 (shapeCast S1x128 v32 shapeCasts_S128_S1x128) broadcasts_S1x128_S64x128))
      (broadcast S64x128 (Scalar.ofBits .f32 0x00000000#32)) : FVec Ideal S64x128 .f32) (ix2 b j)
      = relu (fun j => rowMulT (rowMul (mat v27 b) (mat v28)) (mat v30) j + row v32 j) j := by
  rw [maximumf_apply, broadcast_apply, addf_apply, mmD_apply, broadcastTo_1b_ab_apply, shapeCast_a_1a_apply]
  simp only [mmC_apply]
  show max _ (Ideal.ofBits .f32 0x00000000#32) = _
  rw [Ideal.ofBits_zero_f32]
  rfl

/-- The positive part of (features · W_inᵀ + b_in) at (i, j): the specification's row of h. -/
theorem relu1_apply (v27 : FVec Ideal S10000x128 .f32) (v28 : FVec Ideal S128x128 .f32) (v30 : FVec Ideal S128 .f32)
    (i : Fin 10000) (j : Fin 128) :
    (maximumf (addf (matmul dot_S10000x128_S128x128_S10000x128_1_1_0_0_n_n none v27 v28 (constant S10000x128 .f32 0x00000000#32))
        (broadcastTo S10000x128 (shapeCast S1x128 v30 shapeCasts_S128_S1x128) broadcasts_S1x128_S10000x128))
      (broadcast S10000x128 (Scalar.ofBits .f32 0x00000000#32)) : FVec Ideal S10000x128 .f32) (ix2 i j)
      = hRow (mat v27 i) (mat v28) (row v30) j := by
  rw [maximumf_apply, broadcast_apply, addf_apply, mmE_apply, broadcastTo_1b_ab_apply, shapeCast_a_1a_apply]
  show max _ (Ideal.ofBits .f32 0x00000000#32) = _
  rw [Ideal.ofBits_zero_f32]
  rfl

/-! ## The four stored values -/

/-- h at row i, column j: the positive part of (row i of the features) · W_inᵀ + b_in. -/
theorem pay1_apply (v27 : Vec Ideal S10000x128 .f32) (v28 : Vec Ideal S128x128 .f32) (v30 : Vec Ideal S128 .f32)
    (i : Fin 10000) (j : Fin 128) :
    k0_pay1 (F := Ideal) v27 v28 v30 (ix2 i j) = hRow (mat v27 i) (mat v28) (row v30) j := by
  unfold k0_pay1
  exact (congrFun (shapeCast_self _ shapeCasts_S10000x128_S10000x128) (ix2 i j)).trans (relu1_apply v27 v28 v30 i j)

/-- A tile's h_struct at local row p, column q: the specification's row function of row p of the tile. -/
theorem pay2_apply (v3 : Vec Ideal S400x10000 .f32) (v4 : Vec Ideal S10000x128 .f32) (v6 : Vec Ideal S128x128 .f32)
    (p : Fin 400) (q : Fin 128) :
    k0_pay2 (F := Ideal) v3 v4 v6 (ix2 p q) = hsRow (mat v3 p) (mat v4) (mat v6) q := by
  unfold k0_pay2
  refine (norm400_apply _ p q).trans ?_
  exact congrArg (fun r => l2n r q) (funext fun j => relu2_apply v3 v4 v6 p j)

/-- What goes into the mirror is what goes into the output block. -/
theorem pay3_eq (v3 : Vec Ideal S400x10000 .f32) (v4 : Vec Ideal S10000x128 .f32) (v6 : Vec Ideal S128x128 .f32) :
    k0_pay3 (F := Ideal) v3 v4 v6 = k0_pay2 (F := Ideal) v3 v4 v6 := by
  unfold k0_pay3
  exact shapeCast_self _ shapeCasts_S400x128_S400x128

/-- The pooled output at graph b, column j: the specification's row function of row b of the batch matrix. -/
theorem pay4_apply (v27 : Vec Ideal S64x10000 .f32) (v28 : Vec Ideal S10000x128 .f32) (v30 : Vec Ideal S128x128 .f32)
    (v32 : Vec Ideal S128 .f32) (b : Fin 64) (j : Fin 128) :
    k0_pay4 (F := Ideal) v27 v28 v30 v32 (ix2 b j) = hgRow (mat v27 b) (mat v28) (mat v30) (row v32) j := by
  unfold k0_pay4
  refine (norm64_apply _ b j).trans ?_
  exact congrArg (fun r => l2n r j) (funext fun c => relu4_apply v27 v28 v30 v32 b c)

end Cert.KernelIdeal.PayValue

end
-- ==== Proof.KernelValue.lean ====
/-
  The two output arrays after the kernel's run, read off the pipeline's proof data at the ideal instance, are the
  specification's arrays of the argument arrays: each 400-row block of h_struct is what its point wrote (the blocks
  tile the array), and the pooled output is what the last point wrote.
-/
import proofs.«112774_g44092134261233_cont_8to1_c_785_15_alg».proof.Proof.KernelIdeal.Data
import proofs.«112774_g44092134261233_cont_8to1_c_785_15_alg».proof.Proof.PayValue
import proofs.«112774_g44092134261233_cont_8to1_c_785_15_alg».proof.Proof.Spec
import Idealize.ShloMosaic.Lib.Pipeline.Value

set_option maxRecDepth 16384

noncomputable section

namespace Cert.KernelIdeal.KernelValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.Hand Cert.Spec

variable (m : (ℓ : Loc nD τ sig) → Buf (Elt Ideal) ℓ)

/-! ## The index maps, decided once over the grid -/

/-- The adjacency window and the h_struct window move together: at point t both sit at block (t, 0). -/
theorem idx_tile : ∀ t : Fin cfg0.N,
    win0_0.index t (0 : Fin 2) = t.val ∧ win0_0.index t (1 : Fin 2) = 0
    ∧ win0_8.index t (0 : Fin 2) = t.val ∧ win0_8.index t (1 : Fin 2) = 0 :=
  (by decide +kernel : ∀ t : Fin grid0.N, _)

/-- Every other window sits at block 0 on every axis, at every point: its one block is its whole array. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_9.index t (0 : Fin 2) = 0 ∧ win0_9.index t (1 : Fin 2) = 0 :=
  (by decide +kernel : ∀ t : Fin grid0.N, _)

/-- Row p of point t's tile is a row of the whole array. -/
theorem row_lt (t : Fin cfg0.N) (p : Fin 400) : 400 * t.val + p.val < 10000 := by
  have ht : t.val < 25 := lt_of_lt_of_eq t.isLt N_eq
  have hp : p.val < 400 := p.isLt
  omega

/-- The row of the whole array that local row p of point t's tile is. -/
def rowOf (t : Fin cfg0.N) (p : Fin 400) : Fin 10000 := ⟨400 * t.val + p.val, row_lt t p⟩

/-! ## Each input block, read where its rectangle says -/

/-- Entry (p, k) of point t's adjacency tile is entry (400·t + p, k) of the adjacency. -/
theorem blkA_apply (c : Dev nD) (t : Fin cfg0.N) (p : Fin 400) (k : Fin 10000) :
    blkA (F := Ideal) m c t (ix2 p k) = m ((c.tc : Thread nD τ).loc main_arg0) (ix2 (rowOf t p) k) := by
  obtain ⟨e0, e1, -, -⟩ := idx_tile t
  show V m c main_arg0 (((cfg0.win 0).blk t).view.emb (ix2 p k)) = _
  refine congrArg (m ((c.tc : Thread nD τ).loc main_arg0)) ?_
  funext a; apply Fin.ext
  match a with
  | ⟨0, _⟩ => show win0_0.index t (0 : Fin 2) * 400 + 1 * p.val = 400 * t.val + p.val; omega
  | ⟨1, _⟩ => show win0_0.index t (1 : Fin 2) * 10000 + 1 * k.val = k.val; omega

/-- The batch matrix's one block is the whole batch matrix. -/
theorem blkB_eq (c : Dev nD) (t : Fin cfg0.N) :
    blkB (F := Ideal) m c t = m ((c.tc : Thread nD τ).loc main_arg1) := by
  obtain ⟨e0, e1, -⟩ := idx_whole t
  funext y
  show V m c main_arg1 (((cfg0.win 1).blk t).view.emb y) = _
  refine congrArg (m ((c.tc : Thread nD τ).loc main_arg1)) ?_
  funext a; apply Fin.ext
  match a with
  | ⟨0, _⟩ => show win0_1.index t (0 : Fin 2) * 64 + 1 * (y 0).val = (y 0).val; omega
  | ⟨1, _⟩ => show win0_1.index t (1 : Fin 2) * 10000 + 1 * (y 1).val = (y 1).val; omega

/-- The features' one block is the whole feature array. -/
theorem blkX_eq (c : Dev nD) (t : Fin cfg0.N) :
    blkX (F := Ideal) m c t = m ((c.tc : Thread nD τ).loc main_arg2) := by
  obtain ⟨-, -, e0, e1, -⟩ := idx_whole t
  funext y
  show V m c main_arg2 (((cfg0.win 2).blk t).view.emb y) = _
  refine congrArg (m ((c.tc : Thread nD τ).loc main_arg2)) ?_
  funext a; apply Fin.ext
  match a with
  | ⟨0, _⟩ => show win0_2.index t (0 : Fin 2) * 10000 + 1 * (y 0).val = (y 0).val; omega
  | ⟨1, _⟩ => show win0_2.index t (1 : Fin 2) * 128 + 1 * (y 1).val = (y 1).val; omega

/-- The input weights' one block is the whole array. -/
theorem blkWin_eq (c : Dev nD) (t : Fin cfg0.N) :
    blkWin (F := Ideal) m c t = m ((c.tc : Thread nD τ).loc main_arg3) := by
  obtain ⟨-, -, -, -, e0, e1, -⟩ := idx_whole t
  funext y
  show V m c main_arg3 (((cfg0.win 3).blk t).view.emb y) = _
  refine congrArg (m ((c.tc : Thread nD τ).loc main_arg3)) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The input bias's one block is the whole array. -/
theorem blkbin_eq (c : Dev nD) (t : Fin cfg0.N) :
    blkbin (F := Ideal) m c t = m ((c.tc : Thread nD τ).loc main_arg4) := by
  obtain ⟨-, -, -, -, -, -, e0, -⟩ := idx_whole t
  funext y
  show V m c main_arg4 (((cfg0.win 4).blk t).view.emb y) = _
  refine congrArg (m ((c.tc : Thread nD τ).loc main_arg4)) ?_
  funext a; apply Fin.ext
  match a with
  | ⟨0, _⟩ => show win0_4.index t (0 : Fin 1) * 128 + 1 * (y 0).val = (y 0).val; omega

/-- The GCN weights' one block is the whole array. -/
theorem blkWgcn_eq (c : Dev nD) (t : Fin cfg0.N) :
    blkWgcn (F := Ideal) m c t = m ((c.tc : Thread nD τ).loc main_arg5) := by
  obtain ⟨-, -, -, -, -, -, -, e0, e1, -⟩ := idx_whole t
  funext y
  show V m c main_arg5 (((cfg0.win 5).blk t).view.emb y) = _
  refine congrArg (m ((c.tc : Thread nD τ).loc main_arg5)) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The graph weights' one block is the whole array. -/
theorem blkWg_eq (c : Dev nD) (t : Fin cfg0.N) :
    blkWg (F := Ideal) m c t = m ((c.tc : Thread nD τ).loc main_arg6) := by
  obtain ⟨-, -, -, -, -, -, -, -, -, e0, e1, -⟩ := idx_whole t
  funext y
  show V m c main_arg6 (((cfg0.win 6).blk t).view.emb y) = _
  refine congrArg (m ((c.tc : Thread nD τ).loc main_arg6)) ?_
  funext a; apply Fin.ext
  match a with
  | ⟨0, _⟩ => show win0_6.index t (0 : Fin 2) * 128 + 1 * (y 0).val = (y 0).val; omega
  | ⟨1, _⟩ => show win0_6.index t (1 : Fin 2) * 128 + 1 * (y 1).val = (y 1).val; omega

/-- The graph bias's one block is the whole array. -/
theorem blkbg_eq (c : Dev nD) (t : Fin cfg0.N) :
    blkbg (F := Ideal) m c t = m ((c.tc : Thread nD τ).loc main_arg7) := by
  obtain ⟨-, -, -, -, -, -, -, -, -, -, -, e0, -⟩ := idx_whole t
  funext y
  show V m c main_arg7 (((cfg0.win 7).blk t).view.emb y) = _
  refine congrArg (m ((c.tc : Thread nD τ).loc main_arg7)) ?_
  funext a; apply Fin.ext
  match a with
  | ⟨0, _⟩ => show win0_7.index t (0 : Fin 1) * 128 + 1 * (y 0).val = (y 0).val; omega

/-! ## The buffers' values as the specification's matrices -/

/-- h as a matrix is the specification's h of the feature, weight and bias arrays. -/
theorem hVal_mat (c : Dev nD) :
    mat (hVal (F := Ideal) m c) = hMat (mat (m ((c.tc : Thread nD τ).loc main_arg2))) (mat (m ((c.tc : Thread nD τ).loc main_arg3))) (row (m ((c.tc : Thread nD τ).loc main_arg4))) := by
  funext i j
  show k0_pay1 (F := Ideal) (blkX m c t0) (blkWin m c t0) (blkbin m c t0) (ix2 i j) = _
  rw [blkX_eq m c t0, blkWin_eq m c t0, blkbin_eq m c t0]
  exact PayValue.pay1_apply _ _ _ i j

/-- Row p of point t's adjacency tile is row 400·t + p of the adjacency. -/
theorem blkA_row (c : Dev nD) (t : Fin cfg0.N) (p : Fin 400) :
    mat (blkA (F := Ideal) m c t) p = mat (m ((c.tc : Thread nD τ).loc main_arg0)) (rowOf t p) :=
  funext fun k => blkA_apply m c t p k

/-- The 400 rows point t computes: local row p is row 400·t + p of the specification's h_struct. -/
theorem hsBlk_apply (c : Dev nD) (t : Fin cfg0.N) (p : Fin 400) (q : Fin 128) :
    hsBlk (F := Ideal) m c t (ix2 p q)
      = hsMat (mat (m ((c.tc : Thread nD τ).loc main_arg0))) (mat (m ((c.tc : Thread nD τ).loc main_arg2))) (mat (m ((c.tc : Thread nD τ).loc main_arg3))) (row (m ((c.tc : Thread nD τ).loc main_arg4))) (mat (m ((c.tc : Thread nD τ).loc main_arg5))) (rowOf t p) q := by
  show k0_pay2 (F := Ideal) (blkA m c t) (hVal m c) (blkWgcn m c t) (ix2 p q) = _
  refine (PayValue.pay2_apply _ _ _ p q).trans ?_
  rw [blkA_row m c t p, hVal_mat m c, blkWgcn_eq m c t]
  rfl

/-- The rows point t stores into the mirror are the same rows. -/
theorem mirBlk_apply (c : Dev nD) (t : Fin cfg0.N) (p : Fin 400) (q : Fin 128) :
    mirBlk (F := Ideal) m c t (ix2 p q)
      = hsMat (mat (m ((c.tc : Thread nD τ).loc main_arg0))) (mat (m ((c.tc : Thread nD τ).loc main_arg2))) (mat (m ((c.tc : Thread nD τ).loc main_arg3))) (row (m ((c.tc : Thread nD τ).loc main_arg4))) (mat (m ((c.tc : Thread nD τ).loc main_arg5))) (rowOf t p) q := by
  have e : mirBlk (F := Ideal) m c t = hsBlk m c t := PayValue.pay3_eq _ _ _
  rw [e]
  exact hsBlk_apply m c t p q

/-- The settled mirror is the specification's h_struct: row i was stored by point i / 400 at local row i % 400,
    and 400·(i / 400) + i % 400 = i. -/
theorem mirror_mat (c : Dev nD) :
    mat (mirror (F := Ideal) m c) = hsMat (mat (m ((c.tc : Thread nD τ).loc main_arg0))) (mat (m ((c.tc : Thread nD τ).loc main_arg2))) (mat (m ((c.tc : Thread nD τ).loc main_arg3))) (row (m ((c.tc : Thread nD τ).loc main_arg4))) (mat (m ((c.tc : Thread nD τ).loc main_arg5))) := by
  funext i j
  show mirBlk (F := Ideal) m c (ptOf (ix2 i j)) (locOf (ix2 i j)) = _
  refine (mirBlk_apply m c (ptOf (ix2 i j)) ⟨i.val % 400, Nat.mod_lt _ (by decide)⟩ j).trans ?_
  have e : rowOf (ptOf (ix2 i j)) ⟨i.val % 400, Nat.mod_lt _ (by decide)⟩ = i :=
    Fin.ext (Nat.div_add_mod i.val 400)
  rw [e]

/-! ## The h_struct array: what each point writes back, and the cover -/

/-- What point t writes back is block t of the specification's h_struct array. -/
theorem flushed8_eq (c : Dev nD) (t : Fin cfg0.N) :
    (dats (F := Ideal) m 0 c).flushed 8 t = ((cfg0.win 8).blk t).view.read (Elt Ideal)
      (hsArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  show (cfg0.win 8).cut (grid0.coords t) ((dats (F := Ideal) m 0 c).after 8 t) = _
  rw [after8]
  obtain ⟨-, -, e0, e1⟩ := idx_tile t
  funext y
  obtain ⟨p, q, rfl⟩ : ∃ (p : Fin 400) (q : Fin 128), y = ix2 p q := ⟨y 0, y 1, eq_ix2 y⟩
  show hsBlk (F := Ideal) m c t (ix2 p q) = hsArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (((cfg0.win 8).blk t).view.emb (ix2 p q))
  have hemb : ((cfg0.win 8).blk t).view.emb (ix2 p q) = ix2 (rowOf t p) q := by
    funext a; apply Fin.ext
    match a with
    | ⟨0, _⟩ => show win0_8.index t (0 : Fin 2) * 400 + 1 * p.val = 400 * t.val + p.val; omega
    | ⟨1, _⟩ => show win0_8.index t (1 : Fin 2) * 128 + 1 * q.val = q.val; omega
  rw [hemb]
  exact hsBlk_apply m c t p q

/-- An index of the h_struct array is in point t's block iff each coordinate is in the block's range on its axis. -/
theorem mem_blk8 (t : Fin cfg0.N) (i : S10000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v0_0).slice (win0_8.rect t)).set ↔ _
  rw [View.set_slice_whole, Rect.mem_set_unit]
  exact Iff.rfl

/-- Every row r of the h_struct array is in the block of point r / 400. -/
theorem cover8 (i : S10000x128.Idx) :
    ∃ t : Fin cfg0.N, (cfg0.win 8).flush t = true ∧ i ∈ ((cfg0.win 8).blk t).view.set := by
  have hi0 : (i 0).val < 10000 := idx2_lt0 i
  have hi1 : (i 1).val < 128 := idx2_lt1 i
  refine ⟨⟨(i 0).val / 400, lt_of_lt_of_eq (by omega : (i 0).val / 400 < 25) N_eq.symm⟩, flush0_8 _, ?_⟩
  obtain ⟨-, -, e0, e1⟩ := idx_tile ⟨(i 0).val / 400, lt_of_lt_of_eq (by omega : (i 0).val / 400 < 25) N_eq.symm⟩
  rw [mem_blk8]
  intro a
  match a with
  | ⟨0, _⟩ =>
    show win0_8.index _ (0 : Fin 2) * 400 ≤ (i 0).val ∧ (i 0).val < win0_8.index _ (0 : Fin 2) * 400 + 400
    rw [e0]; show (i 0).val / 400 * 400 ≤ (i 0).val ∧ (i 0).val < (i 0).val / 400 * 400 + 400; omega
  | ⟨1, _⟩ =>
    show win0_8.index _ (1 : Fin 2) * 128 ≤ (i 1).val ∧ (i 1).val < win0_8.index _ (1 : Fin 2) * 128 + 128
    rw [e1]; omega

/-- The h_struct array after every write-back. -/
theorem final8 (c : Dev nD) :
    (dats (F := Ideal) m 0 c).arrAt 8 cfg0.N = hsArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (dats (F := Ideal) m 0 c).arrAt_eq_of_cover 8 _ (fun t _ => flushed8_eq m c t) cover8

/-! ## The pooled array: one whole block, written back by the last point -/

/-- The pooled value a point computes is the specification's h_graph (at every point: it reads whole arrays and the
    settled mirror only). -/
theorem hgVal_apply (c : Dev nD) (t : Fin cfg0.N) (b : Fin 64) (j : Fin 128) :
    hgVal (F := Ideal) m c t (ix2 b j)
      = hgMat (mat (m ((c.tc : Thread nD τ).loc main_arg0))) (mat (m ((c.tc : Thread nD τ).loc main_arg1))) (mat (m ((c.tc : Thread nD τ).loc main_arg2))) (mat (m ((c.tc : Thread nD τ).loc main_arg3))) (row (m ((c.tc : Thread nD τ).loc main_arg4))) (mat (m ((c.tc : Thread nD τ).loc main_arg5))) (mat (m ((c.tc : Thread nD τ).loc main_arg6))) (row (m ((c.tc : Thread nD τ).loc main_arg7))) b j := by
  show k0_pay4 (F := Ideal) (blkB m c t) (mirror m c) (blkWg m c t) (blkbg m c t) (ix2 b j) = _
  refine (PayValue.pay4_apply _ _ _ _ b j).trans ?_
  rw [blkB_eq m c t, mirror_mat m c, blkWg_eq m c t, blkbg_eq m c t]
  rfl

/-- What a point writes back is the one block, the whole of the specification's h_graph array. -/
theorem flushed9_eq (c : Dev nD) (t : Fin cfg0.N) :
    (dats (F := Ideal) m 0 c).flushed 9 t = ((cfg0.win 9).blk t).view.read (Elt Ideal)
      (hgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show (cfg0.win 9).cut (grid0.coords t) ((dats (F := Ideal) m 0 c).after 9 t) = _
  rw [after9]
  obtain ⟨-, -, -, -, -, -, -, -, -, -, -, -, e0, e1⟩ := idx_whole t
  funext y
  obtain ⟨b, j, rfl⟩ : ∃ (b : Fin 64) (j : Fin 128), y = ix2 b j := ⟨y 0, y 1, eq_ix2 y⟩
  show hgVal (F := Ideal) m c t (ix2 b j) = hgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 9).blk t).view.emb (ix2 b j))
  have hemb : ((cfg0.win 9).blk t).view.emb (ix2 b j) = ix2 b j := by
    funext a; apply Fin.ext
    match a with
    | ⟨0, _⟩ => show win0_9.index t (0 : Fin 2) * 64 + 1 * b.val = b.val; omega
    | ⟨1, _⟩ => show win0_9.index t (1 : Fin 2) * 128 + 1 * j.val = j.val; omega
  rw [hemb]
  exact hgVal_apply m c t b j

/-- An index of the pooled array is in point t's block iff each coordinate is in the block's range on its axis. -/
theorem mem_blk9 (t : Fin cfg0.N) (i : S64x128.Idx) :
    i ∈ ((cfg0.win 9).blk t).view.set ↔ ∀ a : Fin 2, win0_9.index t a * S64x128.size a ≤ (i a).val ∧ (i a).val < win0_9.index t a * S64x128.size a + S64x128.size a := by
  show i ∈ ((View.whole main_v0_1).slice (win0_9.rect t)).set ↔ _
  rw [View.set_slice_whole, Rect.mem_set_unit]
  exact Iff.rfl

/-- The last point. -/
def tLast : Fin cfg0.N := ⟨24, lt_of_lt_of_eq (by decide : 24 < 25) N_eq.symm⟩

/-- Every index of the pooled array is in the one block the last point writes back. -/
theorem cover9 (i : S64x128.Idx) :
    ∃ t : Fin cfg0.N, (cfg0.win 9).flush t = true ∧ i ∈ ((cfg0.win 9).blk t).view.set := by
  have hi0 : (i 0).val < 64 := idx2_lt0 i
  have hi1 : (i 1).val < 128 := idx2_lt1 i
  refine ⟨tLast, (flush0_9 tLast).mpr rfl, ?_⟩
  obtain ⟨-, -, -, -, -, -, -, -, -, -, -, -, e0, e1⟩ := idx_whole tLast
  rw [mem_blk9]
  intro a
  match a with
  | ⟨0, _⟩ =>
    show win0_9.index tLast (0 : Fin 2) * 64 ≤ (i 0).val ∧ (i 0).val < win0_9.index tLast (0 : Fin 2) * 64 + 64
    omega
  | ⟨1, _⟩ =>
    show win0_9.index tLast (1 : Fin 2) * 128 ≤ (i 1).val ∧ (i 1).val < win0_9.index tLast (1 : Fin 2) * 128 + 128
    omega

/-- The pooled output array after every write-back. -/
theorem final9 (c : Dev nD) :
    (dats (F := Ideal) m 0 c).arrAt 9 cfg0.N = hgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (dats (F := Ideal) m 0 c).arrAt_eq_of_cover 9 _ (fun t _ => flushed9_eq m c t) cover9

end Cert.KernelIdeal.KernelValue

end
-- ==== Proof.RefValue.lean ====
/-
  The reference's two results, read index by index, are the row functions of the specification applied to
  the argument arrays.
-/
import proofs.«112774_g44092134261233_cont_8to1_c_785_15_alg».proof.Proof.Gen.ReferenceIdeal.Run
import proofs.«112774_g44092134261233_cont_8to1_c_785_15_alg».proof.Proof.Gen.ReferenceIdeal.Read
import proofs.«112774_g44092134261233_cont_8to1_c_785_15_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Spec Cert.ReferenceIdeal.Read

/-- Entry (i, j) of h: the positive part of (row i of X) · W_inᵀ + b_in. -/
theorem h_at (X : (⟨S10000x128, .f32⟩ : BufTy).Contents (Elt Ideal)) (Win : (⟨S128x128, .f32⟩ : BufTy).Contents (Elt Ideal))
    (bin : (⟨S128, .f32⟩ : BufTy).Contents (Elt Ideal)) (i : Fin 10000) (j : Fin 128) :
    val_main_v5 (F := Ideal) X Win bin (ix2 i j) = hMat (mat X) (mat Win) (row bin) i j := by
  rw [val_main_v5_apply, val_main_v4_apply, val_main_v1_apply, val_main_v3_apply, val_main_v2_apply,
    val_main_call0_v0_apply, val_main_call0_cst_apply]
  simp only [val_main_v0_apply]
  have e1 : ∀ k : Fin 128, lidx_main_v1 (ix2 i j) k = ix2 i k := fun k => funext fun a => Fin.ext (by
    match a with | ⟨0, _⟩ => rfl | ⟨1, _⟩ => rfl)
  have e2 : ∀ k : Fin 128, idx_main_v0 (ridx_main_v1 (ix2 i j) k) = ix2 j k := fun k => funext fun a => Fin.ext (by
    match a with | ⟨0, _⟩ => rfl | ⟨1, _⟩ => rfl)
  have e3 : idx_main_v2 (idx_main_v3 (ix2 i j)) = ix1 j := funext fun a => Fin.ext (by
    match a with | ⟨0, _⟩ => rfl)
  simp only [e1, e2, e3, Ideal.addf_def, Ideal.maximumf_def, Ideal.ofBits_def, Ideal.ofBits_zero_f32,
    hMat, hRow, relu, rowMulT, mat, row]

/-- Entry (i, j) of the positive part of ((row i of A) · h) · W_gcn, before the row is normalised. -/
theorem r_at (A : (⟨S10000x10000, .f32⟩ : BufTy).Contents (Elt Ideal)) (X : (⟨S10000x128, .f32⟩ : BufTy).Contents (Elt Ideal))
    (Win : (⟨S128x128, .f32⟩ : BufTy).Contents (Elt Ideal)) (bin : (⟨S128, .f32⟩ : BufTy).Contents (Elt Ideal))
    (Wgcn : (⟨S128x128, .f32⟩ : BufTy).Contents (Elt Ideal)) (i : Fin 10000) (j : Fin 128) :
    val_main_v8 (F := Ideal) A X Win bin Wgcn (ix2 i j)
      = relu (rowMul (rowMul (mat A i) (hMat (mat X) (mat Win) (row bin))) (mat Wgcn)) j := by
  rw [val_main_v8_apply, val_main_v7_apply, val_main_call1_v0_apply, val_main_call1_cst_apply]
  have e1 : ∀ k : Fin 128, lidx_main_v7 (ix2 i j) k = ix2 i k := fun k => funext fun a => Fin.ext (by
    match a with | ⟨0, _⟩ => rfl | ⟨1, _⟩ => rfl)
  have e2 : ∀ k : Fin 128, ridx_main_v7 (ix2 i j) k = ix2 k j := fun k => funext fun a => Fin.ext (by
    match a with | ⟨0, _⟩ => rfl | ⟨1, _⟩ => rfl)
  have e3 : ∀ (k : Fin 128) (l : Fin 10000), lidx_main_v6 (ix2 i k) l = ix2 i l := fun k l => funext fun a => Fin.ext (by
    match a with | ⟨0, _⟩ => rfl | ⟨1, _⟩ => rfl)
  have e4 : ∀ (k : Fin 128) (l : Fin 10000), ridx_main_v6 (ix2 i k) l = ix2 l k := fun k l => funext fun a => Fin.ext (by
    match a with | ⟨0, _⟩ => rfl | ⟨1, _⟩ => rfl)
  simp only [e1, e2, val_main_v6_apply, e3, e4, h_at, Ideal.maximumf_def, Ideal.ofBits_def, Ideal.ofBits_zero_f32,
    relu, rowMul, mat]

/-- Entry (i, j) of h_struct: the row above divided by its Euclidean norm floored at ε. -/
theorem hs_at (A : (⟨S10000x10000, .f32⟩ : BufTy).Contents (Elt Ideal)) (X : (⟨S10000x128, .f32⟩ : BufTy).Contents (Elt Ideal))
    (Win : (⟨S128x128, .f32⟩ : BufTy).Contents (Elt Ideal)) (bin : (⟨S128, .f32⟩ : BufTy).Contents (Elt Ideal))
    (Wgcn : (⟨S128x128, .f32⟩ : BufTy).Contents (Elt Ideal)) (i : Fin 10000) (j : Fin 128) :
    val_main_v16 (F := Ideal) A X Win bin Wgcn (ix2 i j)
      = hsMat (mat A) (mat X) (mat Win) (row bin) (mat Wgcn) i j := by
  rw [val_main_v16_apply, val_main_v15_apply, val_main_v14_apply, val_main_v12_apply, val_main_v11_apply,
    val_main_v10_apply, val_main_v13_apply, val_main_cst_0_apply, val_main_cst_apply]
  have e1 : ∀ k : Fin 128, idx_main_v10 (idx_main_v11 (idx_main_v15 (ix2 i j))) k = ix2 i k := fun k => funext fun a => Fin.ext (by
    match a with | ⟨0, _⟩ => rfl | ⟨1, _⟩ => rfl)
  simp only [e1, val_main_v9_apply, r_at, Ideal.mulf_def, Ideal.maximumf_def, Ideal.hostDivf_def,
    Ideal.hostUnary_sqrt_def, Ideal.ofBits_def, Ideal.ofBits_zero_f32, zero_add, hsMat, hsRow, l2n, eps]

/-- The reference's first result is h_struct of the argument arrays. -/
theorem hs_eq (A : (⟨S10000x10000, .f32⟩ : BufTy).Contents (Elt Ideal)) (X : (⟨S10000x128, .f32⟩ : BufTy).Contents (Elt Ideal))
    (Win : (⟨S128x128, .f32⟩ : BufTy).Contents (Elt Ideal)) (bin : (⟨S128, .f32⟩ : BufTy).Contents (Elt Ideal))
    (Wgcn : (⟨S128x128, .f32⟩ : BufTy).Contents (Elt Ideal)) :
    val_main_v16 (F := Ideal) A X Win bin Wgcn = hsArr A X Win bin Wgcn := by
  funext y
  obtain ⟨p, q, rfl⟩ : ∃ (p : Fin 10000) (q : Fin 128), y = ix2 p q := ⟨y 0, y 1, eq_ix2 y⟩
  exact hs_at A X Win bin Wgcn p q

/-- Entry (b, j) of the positive part of ((row b of B) · h_struct) · W_gᵀ + b_g, before the row is normalised. -/
theorem g_at (A : (⟨S10000x10000, .f32⟩ : BufTy).Contents (Elt Ideal)) (B : (⟨S64x10000, .f32⟩ : BufTy).Contents (Elt Ideal))
    (X : (⟨S10000x128, .f32⟩ : BufTy).Contents (Elt Ideal)) (Win : (⟨S128x128, .f32⟩ : BufTy).Contents (Elt Ideal))
    (bin : (⟨S128, .f32⟩ : BufTy).Contents (Elt Ideal)) (Wgcn : (⟨S128x128, .f32⟩ : BufTy).Contents (Elt Ideal))
    (Wg : (⟨S128x128, .f32⟩ : BufTy).Contents (Elt Ideal)) (bg : (⟨S128, .f32⟩ : BufTy).Contents (Elt Ideal)) (b : Fin 64) (j : Fin 128) :
    val_main_v23 (F := Ideal) A B X Win bin Wgcn Wg bg (ix2 b j)
      = relu (fun j' => rowMulT (rowMul (mat B b) (hsMat (mat A) (mat X) (mat Win) (row bin) (mat Wgcn))) (mat Wg) j'
          + row bg j') j := by
  rw [val_main_v23_apply, val_main_v22_apply, val_main_v19_apply, val_main_v21_apply, val_main_v20_apply,
    val_main_call2_v0_apply, val_main_call2_cst_apply]
  have e1 : ∀ k : Fin 128, lidx_main_v19 (ix2 b j) k = ix2 b k := fun k => funext fun a => Fin.ext (by
    match a with | ⟨0, _⟩ => rfl | ⟨1, _⟩ => rfl)
  have e2 : ∀ k : Fin 128, idx_main_v18 (ridx_main_v19 (ix2 b j) k) = ix2 j k := fun k => funext fun a => Fin.ext (by
    match a with | ⟨0, _⟩ => rfl | ⟨1, _⟩ => rfl)
  have e3 : ∀ (k : Fin 128) (l : Fin 10000), lidx_main_v17 (ix2 b k) l = ix2 b l := fun k l => funext fun a => Fin.ext (by
    match a with | ⟨0, _⟩ => rfl | ⟨1, _⟩ => rfl)
  have e4 : ∀ (k : Fin 128) (l : Fin 10000), ridx_main_v17 (ix2 b k) l = ix2 l k := fun k l => funext fun a => Fin.ext (by
    match a with | ⟨0, _⟩ => rfl | ⟨1, _⟩ => rfl)
  have e5 : idx_main_v20 (idx_main_v21 (ix2 b j)) = ix1 j := funext fun a => Fin.ext (by
    match a with | ⟨0, _⟩ => rfl)
  simp only [e1, val_main_v18_apply, e2, val_main_v17_apply, e3, e4, e5, hs_at, Ideal.addf_def, Ideal.maximumf_def,
    Ideal.ofBits_def, Ideal.ofBits_zero_f32, relu, rowMul, rowMulT, mat, row]

/-- Entry (b, j) of h_graph: the row above divided by its Euclidean norm floored at ε. -/
theorem hg_at (A : (⟨S10000x10000, .f32⟩ : BufTy).Contents (Elt Ideal)) (B : (⟨S64x10000, .f32⟩ : BufTy).Contents (Elt Ideal))
    (X : (⟨S10000x128, .f32⟩ : BufTy).Contents (Elt Ideal)) (Win : (⟨S128x128, .f32⟩ : BufTy).Contents (Elt Ideal))
    (bin : (⟨S128, .f32⟩ : BufTy).Contents (Elt Ideal)) (Wgcn : (⟨S128x128, .f32⟩ : BufTy).Contents (Elt Ideal))
    (Wg : (⟨S128x128, .f32⟩ : BufTy).Contents (Elt Ideal)) (bg : (⟨S128, .f32⟩ : BufTy).Contents (Elt Ideal)) (b : Fin 64) (j : Fin 128) :
    val_main_v31 (F := Ideal) A B X Win bin Wgcn Wg bg (ix2 b j)
      = hgMat (mat A) (mat B) (mat X) (mat Win) (row bin) (mat Wgcn) (mat Wg) (row bg) b j := by
  rw [val_main_v31_apply, val_main_v30_apply, val_main_v29_apply, val_main_v27_apply, val_main_v26_apply,
    val_main_v25_apply, val_main_v28_apply, val_main_cst_2_apply, val_main_cst_1_apply]
  have e1 : ∀ k : Fin 128, idx_main_v25 (idx_main_v26 (idx_main_v30 (ix2 b j))) k = ix2 b k := fun k => funext fun a => Fin.ext (by
    match a with | ⟨0, _⟩ => rfl | ⟨1, _⟩ => rfl)
  simp only [e1, val_main_v24_apply, g_at, Ideal.mulf_def, Ideal.maximumf_def, Ideal.hostDivf_def,
    Ideal.hostUnary_sqrt_def, Ideal.ofBits_def, Ideal.ofBits_zero_f32, zero_add, hgMat, hgRow, l2n, eps]

/-- The reference's second result is h_graph of the argument arrays. -/
theorem hg_eq (A : (⟨S10000x10000, .f32⟩ : BufTy).Contents (Elt Ideal)) (B : (⟨S64x10000, .f32⟩ : BufTy).Contents (Elt Ideal))
    (X : (⟨S10000x128, .f32⟩ : BufTy).Contents (Elt Ideal)) (Win : (⟨S128x128, .f32⟩ : BufTy).Contents (Elt Ideal))
    (bin : (⟨S128, .f32⟩ : BufTy).Contents (Elt Ideal)) (Wgcn : (⟨S128x128, .f32⟩ : BufTy).Contents (Elt Ideal))
    (Wg : (⟨S128x128, .f32⟩ : BufTy).Contents (Elt Ideal)) (bg : (⟨S128, .f32⟩ : BufTy).Contents (Elt Ideal)) :
    val_main_v31 (F := Ideal) A B X Win bin Wgcn Wg bg = hgArr A B X Win bin Wgcn Wg bg := by
  funext y
  obtain ⟨p, q, rfl⟩ : ∃ (p : Fin 64) (q : Fin 128), y = ix2 p q := ⟨y 0, y 1, eq_ix2 y⟩
  exact hg_at A B X Win bin Wgcn Wg bg p q

/-- Every weakly fair execution of the reference ends with its first result at h_struct and its second at h_graph of
    the argument arrays (the specification's arrays), the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = hsArr (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v31) = hgArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans ?_, (h c).2.1.trans ?_, (h c).2.2⟩)
    (Cert.ReferenceIdeal.Value.run (F := Ideal) m ρ)
  · exact (val_main_v16_eq _ _ _ _ _).trans (hs_eq _ _ _ _ _)
  · exact (val_main_v31_eq m c).trans (hg_eq _ _ _ _ _ _ _ _)

end Cert.ReferenceIdeal.RefValue

end
-- ==== Proof.lean ====
/-
  The certificate: three frames, the idealization's ledger (empty), and the equivalence over the extended reals.

  Both programs compute, from the adjacency A, the pooling matrix B, the features X and the layers' weights,
    h        = max(X · W_inᵀ + b_in, 0),
    h_struct = the rows of max((A · h) · W_gcn, 0), each divided by max(‖row‖₂, ε),
    h_graph  = the rows of max((B · h_struct) · W_gᵀ + b_g, 0), each divided by max(‖row‖₂, ε).
  The reference does it with whole matrices. The kernel walks the adjacency in 25 tiles of 400 rows: the first grid
  point computes h and keeps it; every point computes its tile's 400 rows of h_struct, writes them out, and copies
  them into a mirror it keeps on chip; the last point pools the completed mirror. Since every stage acts on one row of
  its left operand at a time, a tile's rows are the whole result's rows, and no law of arithmetic beyond naming the
  same sums is needed: the two results are one function of the arguments, entry by entry.
-/
import proofs.«112774_g44092134261233_cont_8to1_c_785_15_alg».proof.Defs
import proofs.«112774_g44092134261233_cont_8to1_c_785_15_alg».proof.Proof.Gen.Kernel
import proofs.«112774_g44092134261233_cont_8to1_c_785_15_alg».proof.Proof.Gen.KernelIdeal
import proofs.«112774_g44092134261233_cont_8to1_c_785_15_alg».proof.Proof.Gen.ReferenceIdeal
import proofs.«112774_g44092134261233_cont_8to1_c_785_15_alg».proof.Proof.Gen.Pre_finite_inputs
import proofs.«112774_g44092134261233_cont_8to1_c_785_15_alg».proof.Proof.Kernel.Body
import proofs.«112774_g44092134261233_cont_8to1_c_785_15_alg».proof.Proof.KernelIdeal.Body
import proofs.«112774_g44092134261233_cont_8to1_c_785_15_alg».proof.Proof.KernelValue
import proofs.«112774_g44092134261233_cont_8to1_c_785_15_alg».proof.Proof.RefValue
import Idealize.ShloMosaic.Adequacy
import Idealize.ShloMosaic.Init

noncomputable section

namespace Cert.Proof

open Idealize.ShloMosaic Idealize.ShloMosaic.TcCoe Idealize.SL.Sem

/-- The word-level program terminates on every weakly fair execution and leaves its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- So does the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing: its ledger is empty. -/
theorem preserves : Cert.preserves_Kernel_KernelIdeal := trivial

/-- From memories that agree on the arguments, both programs end with h_struct and h_graph of the arguments: the kernel's
    two output arrays are the blocks its points wrote back, the reference's results its composed operations, and each is
    the specification's array. -/
theorem algebraic : Cert.algebraic_KernelIdeal_ReferenceIdeal := by
  intro m ρ m' ρ' _ hagree
  refine ⟨fun c => Cert.Spec.hsArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.hgArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨((h c).1 8).trans (Cert.KernelIdeal.KernelValue.final8 m c),
      ((h c).1 9).trans (Cert.KernelIdeal.KernelValue.final9 m c),
      ((h c).1 0).trans (((Cert.KernelIdeal.Hand.dats (F := Ideal) m 0 c).arrAt_in 0 rfl _).trans ((Cert.KernelIdeal.Hand.A_eq m c 0).trans (Cert.KernelIdeal.Gen.V_main_arg0 m c))),
      ((h c).1 1).trans (((Cert.KernelIdeal.Hand.dats (F := Ideal) m 0 c).arrAt_in 1 rfl _).trans ((Cert.KernelIdeal.Hand.A_eq m c 1).trans (Cert.KernelIdeal.Gen.V_main_arg1 m c))),
      ((h c).1 2).trans (((Cert.KernelIdeal.Hand.dats (F := Ideal) m 0 c).arrAt_in 2 rfl _).trans ((Cert.KernelIdeal.Hand.A_eq m c 2).trans (Cert.KernelIdeal.Gen.V_main_arg2 m c))),
      ((h c).1 3).trans (((Cert.KernelIdeal.Hand.dats (F := Ideal) m 0 c).arrAt_in 3 rfl _).trans ((Cert.KernelIdeal.Hand.A_eq m c 3).trans (Cert.KernelIdeal.Gen.V_main_arg3 m c))),
      ((h c).1 4).trans (((Cert.KernelIdeal.Hand.dats (F := Ideal) m 0 c).arrAt_in 4 rfl _).trans ((Cert.KernelIdeal.Hand.A_eq m c 4).trans (Cert.KernelIdeal.Gen.V_main_arg4 m c))),
      ((h c).1 5).trans (((Cert.KernelIdeal.Hand.dats (F := Ideal) m 0 c).arrAt_in 5 rfl _).trans ((Cert.KernelIdeal.Hand.A_eq m c 5).trans (Cert.KernelIdeal.Gen.V_main_arg5 m c))),
      ((h c).1 6).trans (((Cert.KernelIdeal.Hand.dats (F := Ideal) m 0 c).arrAt_in 6 rfl _).trans ((Cert.KernelIdeal.Hand.A_eq m c 6).trans (Cert.KernelIdeal.Gen.V_main_arg6 m c))),
      ((h c).1 7).trans (((Cert.KernelIdeal.Hand.dats (F := Ideal) m 0 c).arrAt_in 7 rfl _).trans ((Cert.KernelIdeal.Hand.A_eq m c 7).trans (Cert.KernelIdeal.Gen.V_main_arg7 m c)))⟩)
      (Cert.KernelIdeal.Hand.run_main (F := Ideal) m ρ)
  · refine (θ_run Cert.ReferenceIdeal.defs _ _).mono (fun r h c => ?_) (Cert.ReferenceIdeal.RefValue.run_spec m' ρ')
    obtain ⟨e0, e1, e2, e3, e4, e5, e6, e7⟩ := hagree c
    refine ⟨(h c).1.trans ?_, (h c).2.1.trans ?_, (h c).2.2⟩
    · rw [e0, e2, e3, e4, e5]
    · rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
